-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S85x256 : Shape := ⟨2, ![85, 256]⟩
abbrev S5625x128 : Shape := ⟨2, ![5625, 128]⟩
abbrev S256x200 : Shape := ⟨2, ![256, 200]⟩
abbrev S200 : Shape := ⟨1, ![200]⟩
abbrev S128x2 : Shape := ⟨2, ![128, 2]⟩
abbrev S2 : Shape := ⟨1, ![2]⟩
abbrev S113x5 : Shape := ⟨2, ![113, 5]⟩
abbrev S5 : Shape := ⟨1, ![5]⟩
abbrev S2x1360 : Shape := ⟨2, ![2, 1360]⟩
abbrev S2x180000 : Shape := ⟨2, ![2, 180000]⟩
abbrev S_ : Shape := ⟨0, ![]⟩

class Facts : Prop where
  bcast_S_S85x256 : S_.BroadcastsInDim S85x256 (![] : Fin 0 → Fin S85x256.rank)
  reducesTo_S85x256_S_d0_1 : S85x256.ReducesTo [0, 1] S_
  h_S_ : 0 < S_.numel
  bcast_S_S5625x128 : S_.BroadcastsInDim S5625x128 (![] : Fin 0 → Fin S5625x128.rank)
  reducesTo_S5625x128_S_d0_1 : S5625x128.ReducesTo [0, 1] S_
  bcast_S_S256x200 : S_.BroadcastsInDim S256x200 (![] : Fin 0 → Fin S256x200.rank)
  reducesTo_S256x200_S_d0_1 : S256x200.ReducesTo [0, 1] S_
  bcast_S_S200 : S_.BroadcastsInDim S200 (![] : Fin 0 → Fin S200.rank)
  reducesTo_S200_S_d0 : S200.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S113x5 : S_.BroadcastsInDim S113x5 (![] : Fin 0 → Fin S113x5.rank)
  reducesTo_S113x5_S_d0_1 : S113x5.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg7 : FVec F S5 .f32) (main_v33 : IVec S_ 1) : IVec S_ 1 :=
  let main_v34 : FVec F S5 .f32 := Host.absf main_arg7
  let main_cst_12 : FVec F S_ .f32 := constant S_ .f32 0x7F800000#32
  let main_v35 : FVec F S5 .f32 := broadcastInDim S5 ![] bcast_S_S5 main_cst_12
  let main_v36 : IVec S5 1 := cmpf .olt main_v34 main_v35
  let main_c_13 : IVec S_ 1 := constantI S_ 1 1#1
  let main_v37 : IVec S_ 1 := (fun x v => Host.reduce IntOp.andi x v reducesTo_S5_S_d0 h_S_) main_v36 main_c_13
  let main_v38 : IVec S_ 1 := andi main_v33 main_v37
  main_v38

def fn_part1 {F : FTy → Type} [FloatOps F] (main_arg4 : FVec F S128x2 .f32) (main_arg5 : FVec F S2 .f32) (main_arg6 : FVec F S113x5 .f32) (main_arg7 : FVec F S5 .f32) (main_v13 : IVec S_ 1) (main_v16 : IVec S200 1) : IVec S_ 1 :=
  let main_c_5 : IVec S_ 1 := constantI S_ 1 1#1
  let main_v17 : IVec S_ 1 := (fun x v => Host.reduce IntOp.andi x v reducesTo_S200_S_d0 h_S_) main_v16 main_c_5
  let main_v18 : IVec S_ 1 := andi main_v13 main_v17
  let main_v19 : FVec F S128x2 .f32 := Host.absf main_arg4
  let main_cst_6 : FVec F S_ .f32 := constant S_ .f32 0x7F800000#32
  let main_v20 : FVec F S128x2 .f32 := broadcastInDim S128x2 ![] bcast_S_S128x2 main_cst_6
  let main_v21 : IVec S128x2 1 := cmpf .olt main_v19 main_v20
  let main_c_7 : IVec S_ 1 := constantI S_ 1 1#1
  let main_v22 : IVec S_ 1 := (fun x v => Host.reduce IntOp.andi x v reducesTo_S128x2_S_d0_1 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S113x5 .f32 := Host.absf main_arg6
  let main_cst_10 : FVec F S_ .f32 := constant S_ .f32 0x7F800000#32
  let main_v30 : FVec F S113x5 .f32 := broadcastInDim S113x5 ![] bcast_S_S113x5 main_cst_10
  let main_v31 : IVec S113x5 1 := cmpf .olt main_v29 main_v30
  let main_c_11 : IVec S_ 1 := constantI S_ 1 1#1
  let main_v32 : IVec S_ 1 := (fun x v => Host.reduce IntOp.andi x v reducesTo_S113x5_S_d0_1 h_S_) main_v31 main_c_11
  let main_v33 : IVec S_ 1 := andi main_v28 main_v32
  fn_part2 (F := F) main_arg7 main_v33

def fn {F : FTy → Type} [FloatOps F] (main_arg0 : FVec F S85x256 .f32) (main_arg1 : FVec F S5625x128 .f32) (main_arg2 : FVec F S256x200 .f32) (main_arg3 : FVec F S200 .f32) (main_arg4 : FVec F S128x2 .f32) (main_arg5 : FVec F S2 .f32) (main_arg6 : FVec F S113x5 .f32) (main_arg7 : FVec F S5 .f32) (main_arg8 : IVec S2x1360 32) (main_arg9 : IVec S2x180000 32) : IVec S_ 1 :=
  let main_v0 : FVec F S85x256 .f32 := Host.absf main_arg0
  let main_cst : FVec F S_ .f32 := constant S_ .f32 0x7F800000#32
  let main_v1 : FVec F S85x256 .f32 := broadcastInDim S85x256 ![] bcast_S_S85x256 main_cst
  let main_v2 : IVec S85x256 1 := cmpf .olt main_v0 main_v1
  let main_c : IVec S_ 1 := constantI S_ 1 1#1
  let main_v3 : IVec S_ 1 := (fun x v => Host.reduce IntOp.andi x v reducesTo_S85x256_S_d0_1 h_S_) main_v2 main_c
  let main_v4 : FVec F S5625x128 .f32 := Host.absf main_arg1
  let main_cst_0 : FVec F S_ .f32 := constant S_ .f32 0x7F800000#32
  let main_v5 : FVec F S5625x128 .f32 := broadcastInDim S5625x128 ![] bcast_S_S5625x128 main_cst_0
  let main_v6 : IVec S5625x128 1 := cmpf .olt main_v4 main_v5
  let main_c_1 : IVec S_ 1 := constantI S_ 1 1#1
  let main_v7 : IVec S_ 1 := (fun x v => Host.reduce IntOp.andi x v reducesTo_S5625x128_S_d0_1 h_S_) main_v6 main_c_1
  let main_v8 : IVec S_ 1 := andi main_v3 main_v7
  let main_v9 : FVec F S256x200 .f32 := Host.absf main_arg2
  let main_cst_2 : FVec F S_ .f32 := constant S_ .f32 0x7F800000#32
  let main_v10 : FVec F S256x200 .f32 := broadcastInDim S256x200 ![] bcast_S_S256x200 main_cst_2
  let main_v11 : IVec S256x200 1 := cmpf .olt main_v9 main_v10
  let main_c_3 : IVec S_ 1 := constantI S_ 1 1#1
  let main_v12 : IVec S_ 1 := (fun x v => Host.reduce IntOp.andi x v reducesTo_S256x200_S_d0_1 h_S_) main_v11 main_c_3
  let main_v13 : IVec S_ 1 := andi main_v8 main_v12
  let main_v14 : FVec F S200 .f32 := Host.absf main_arg3
  let main_cst_4 : FVec F S_ .f32 := constant S_ .f32 0x7F800000#32
  let main_v15 : FVec F S200 .f32 := broadcastInDim S200 ![] bcast_S_S200 main_cst_4
  let main_v16 : IVec S200 1 := cmpf .olt main_v14 main_v15
  fn_part1 (F := F) main_arg4 main_arg5 main_arg6 main_arg7 main_v13 main_v16
-- ==== Kernel.lean ====
abbrev S85x256 : Shape := ⟨2, ![85, 256]⟩
abbrev S5625x128 : Shape := ⟨2, ![5625, 128]⟩
abbrev S256x200 : Shape := ⟨2, ![256, 200]⟩
abbrev S200 : Shape := ⟨1, ![200]⟩
abbrev S128x2 : Shape := ⟨2, ![128, 2]⟩
abbrev S2 : Shape := ⟨1, ![2]⟩
abbrev S113x5 : Shape := ⟨2, ![113, 5]⟩
abbrev S5 : Shape := ⟨1, ![5]⟩
abbrev S2x1360 : Shape := ⟨2, ![2, 1360]⟩
abbrev S2x180000 : Shape := ⟨2, ![2, 180000]⟩
abbrev S85x200 : Shape := ⟨2, ![85, 200]⟩
abbrev S85 : Shape := ⟨1, ![85]⟩
abbrev S1x1360 : Shape := ⟨2, ![1, 1360]⟩
abbrev S1360 : Shape := ⟨1, ![1360]⟩
abbrev S1445 : Shape := ⟨1, ![1445]⟩
abbrev S_ : Shape := ⟨0, ![]⟩
abbrev S1445x1 : Shape := ⟨2, ![1445, 1]⟩
abbrev S1445x200 : Shape := ⟨2, ![1445, 200]⟩
abbrev S1x200 : Shape := ⟨2, ![1, 200]⟩
abbrev S250x68 : Shape := ⟨2, ![250, 68]⟩
abbrev S5625x2 : Shape := ⟨2, ![5625, 2]⟩
abbrev S5625 : Shape := ⟨1, ![5625]⟩
abbrev S1x180000 : Shape := ⟨2, ![1, 180000]⟩
abbrev S180000 : Shape := ⟨1, ![180000]⟩
abbrev S185625 : Shape := ⟨1, ![185625]⟩
abbrev S185625x1 : Shape := ⟨2, ![185625, 1]⟩
abbrev S185625x2 : Shape := ⟨2, ![185625, 2]⟩
abbrev S1x2 : Shape := ⟨2, ![1, 2]⟩
abbrev S250x45 : Shape := ⟨2, ![250, 45]⟩
abbrev S250x113 : Shape := ⟨2, ![250, 113]⟩
abbrev S1x5 : Shape := ⟨2, ![1, 5]⟩
abbrev S250x5 : Shape := ⟨2, ![250, 5]⟩

abbrev nBuf : Space → Nat
  | .hbm => 139
  | .vmem => 10
  | .smem => 0
  | _ => 0

abbrev hbmTy0_0 (i : Nat) : BufTy := match i % 128 with
  | 0 => ⟨S85x256, .f32⟩
  | 1 => ⟨S5625x128, .f32⟩
  | 2 => ⟨S256x200, .f32⟩
  | 3 => ⟨S200, .f32⟩
  | 4 => ⟨S128x2, .f32⟩
  | 5 => ⟨S2, .f32⟩
  | 6 => ⟨S113x5, .f32⟩
  | 7 => ⟨S5, .f32⟩
  | 8 => ⟨S2x1360, .i32⟩
  | 9 => ⟨S2x180000, .i32⟩
  | 10 => ⟨S85x200, .f32⟩
  | 11 => ⟨S85, .i32⟩
  | 12 => ⟨S1x1360, .i32⟩
  | 13 => ⟨S1360, .i32⟩
  | 14 => ⟨S1445, .i32⟩
  | 15 => ⟨S1x1360, .i32⟩
  | 16 => ⟨S1360, .i32⟩
  | 17 => ⟨S1445, .i32⟩
  | 18 => ⟨S_, .f32⟩
  | 19 => ⟨S1445, .f32⟩
  | 20 => ⟨S_, .f32⟩
  | 21 => ⟨S85, .f32⟩
  | 22 => ⟨S1445x1, .i32⟩
  | 23 => ⟨S85, .f32⟩
  | 24 => ⟨S_, .f32⟩
  | 25 => ⟨S85, .f32⟩
  | 26 => ⟨S85, .i1⟩
  | 27 => ⟨S_, .f32⟩
  | 28 => ⟨S85, .f32⟩
  | 29 => ⟨S85, .f32⟩
  | 30 => ⟨S_, .f32⟩
  | 31 => ⟨S_, .f32⟩
  | 32 => ⟨S85, .f32⟩
  | 33 => ⟨S85, .f32⟩
  | 34 => ⟨S_, .i32⟩
  | 35 => ⟨S1445, .i32⟩
  | 36 => ⟨S1445, .i1⟩
  | 37 => ⟨S_, .i32⟩
  | 38 => ⟨S1445, .i32⟩
  | 39 => ⟨S1445, .i32⟩
  | 40 => ⟨S1445, .i32⟩
  | 41 => ⟨S1445x1, .i32⟩
  | 42 => ⟨S1445, .f32⟩
  | 43 => ⟨S_, .i32⟩
  | 44 => ⟨S1445, .i32⟩
  | 45 => ⟨S1445, .i1⟩
  | 46 => ⟨S_, .i32⟩
  | 47 => ⟨S1445, .i32⟩
  | 48 => ⟨S1445, .i32⟩
  | 49 => ⟨S1445, .i32⟩
  | 50 => ⟨S1445x1, .i32⟩
  | 51 => ⟨S1445, .f32⟩
  | 52 => ⟨S1445, .f32⟩
  | 53 => ⟨S_, .i32⟩
  | 54 => ⟨S1445, .i32⟩
  | 55 => ⟨S1445, .i1⟩
  | 56 => ⟨S_, .i32⟩
  | 57 => ⟨S1445, .i32⟩
  | 58 => ⟨S1445, .i32⟩
  | 59 => ⟨S1445, .i32⟩
  | 60 => ⟨S1445x1, .i32⟩
  | 61 => ⟨S1445x200, .f32⟩
  | 62 => ⟨S1445x1, .f32⟩
  | 63 => ⟨S1445x200, .f32⟩
  | 64 => ⟨S1445x200, .f32⟩
  | 65 => ⟨S_, .f32⟩
  | 66 => ⟨S85x200, .f32⟩
  | 67 => ⟨S1445x1, .i32⟩
  | 68 => ⟨S85x200, .f32⟩
  | 69 => ⟨S1x200, .f32⟩
  | 70 => ⟨S85x200, .f32⟩
  | 71 => ⟨S85x200, .f32⟩
  | 72 => ⟨S250x68, .f32⟩
  | 73 => ⟨S5625x2, .f32⟩
  | 74 => ⟨S5625, .i32⟩
  | 75 => ⟨S1x180000, .i32⟩
  | 76 => ⟨S180000, .i32⟩
  | 77 => ⟨S185625, .i32⟩
  | 78 => ⟨S1x180000, .i32⟩
  | 79 => ⟨S180000, .i32⟩
  | 80 => ⟨S185625, .i32⟩
  | 81 => ⟨S_, .f32⟩
  | 82 => ⟨S185625, .f32⟩
  | 83 => ⟨S_, .f32⟩
  | 84 => ⟨S5625, .f32⟩
  | 85 => ⟨S185625x1, .i32⟩
  | 86 => ⟨S5625, .f32⟩
  | 87 => ⟨S_, .f32⟩
  | 88 => ⟨S5625, .f32⟩
  | 89 => ⟨S5625, .i1⟩
  | 90 => ⟨S_, .f32⟩
  | 91 => ⟨S5625, .f32⟩
  | 92 => ⟨S5625, .f32⟩
  | 93 => ⟨S_, .f32⟩
  | 94 => ⟨S_, .f32⟩
  | 95 => ⟨S5625, .f32⟩
  | 96 => ⟨S5625, .f32⟩
  | 97 => ⟨S_, .i32⟩
  | 98 => ⟨S185625, .i32⟩
  | 99 => ⟨S185625, .i1⟩
  | 100 => ⟨S_, .i32⟩
  | 101 => ⟨S185625, .i32⟩
  | 102 => ⟨S185625, .i32⟩
  | 103 => ⟨S185625, .i32⟩
  | 104 => ⟨S185625x1, .i32⟩
  | 105 => ⟨S185625, .f32⟩
  | 106 => ⟨S_, .i32⟩
  | 107 => ⟨S185625, .i32⟩
  | 108 => ⟨S185625, .i1⟩
  | 109 => ⟨S_, .i32⟩
  | 110 => ⟨S185625, .i32⟩
  | 111 => ⟨S185625, .i32⟩
  | 112 => ⟨S185625, .i32⟩
  | 113 => ⟨S185625x1, .i32⟩
  | 114 => ⟨S185625, .f32⟩
  | 115 => ⟨S185625, .f32⟩
  | 116 => ⟨S_, .i32⟩
  | 117 => ⟨S185625, .i32⟩
  | 118 => ⟨S185625, .i1⟩
  | 119 => ⟨S_, .i32⟩
  | 120 => ⟨S185625, .i32⟩
  | 121 => ⟨S185625, .i32⟩
  | 122 => ⟨S185625, .i32⟩
  | 123 => ⟨S185625x1, .i32⟩
  | 124 => ⟨S185625x2, .f32⟩
  | 125 => ⟨S185625x1, .f32⟩
  | 126 => ⟨S185625x2, .f32⟩
  | 127 => ⟨S185625x2, .f32⟩
  | _ => ⟨S85x256, .f32⟩

abbrev hbmTy0_1 (i : Nat) : BufTy := match i % 128 with
  | 0 => ⟨S_, .f32⟩
  | 1 => ⟨S5625x2, .f32⟩
  | 2 => ⟨S185625x1, .i32⟩
  | 3 => ⟨S5625x2, .f32⟩
  | 4 => ⟨S1x2, .f32⟩
  | 5 => ⟨S5625x2, .f32⟩
  | 6 => ⟨S5625x2, .f32⟩
  | 7 => ⟨S250x45, .f32⟩
  | 8 => ⟨S250x113, .f32⟩
  | 9 => ⟨S1x5, .f32⟩
  | 10 => ⟨S250x5, .f32⟩
  | _ => ⟨S85x256, .f32⟩

abbrev hbmTy (i : Nat) : BufTy := match i / 128 with
  | 0 => hbmTy0_0 i
  | 1 => hbmTy0_1 i
  | _ => ⟨S85x256, .f32⟩

abbrev bufTy : (tb : Table) → Fin (tcTables nBuf tb) → BufTy
  | .hbm, ⟨i, _⟩ => hbmTy i
  | .local _ .vmem, ⟨0, _⟩ => ⟨S85x256, .f32⟩
  | .local _ .vmem, ⟨1, _⟩ => ⟨S256x200, .f32⟩
  | .local _ .vmem, ⟨2, _⟩ => ⟨S85x200, .f32⟩
  | .local _ .vmem, ⟨3, _⟩ => ⟨S5625x128, .f32⟩
  | .local _ .vmem, ⟨4, _⟩ => ⟨S128x2, .f32⟩
  | .local _ .vmem, ⟨5, _⟩ => ⟨S5625x2, .f32⟩
  | .local _ .vmem, ⟨6, _⟩ => ⟨S250x113, .f32⟩
  | .local _ .vmem, ⟨7, _⟩ => ⟨S113x5, .f32⟩
  | .local _ .vmem, ⟨8, _⟩ => ⟨S1x5, .f32⟩
  | .local _ .vmem, ⟨9, _⟩ => ⟨S250x5, .f32⟩
  | _, _ => ⟨S85x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_cst_14 : Ref sig .tc := ⟨.hbm, 93, rfl⟩
abbrev main_call1_v0 : Ref sig .tc := ⟨.hbm, 94, rfl⟩
abbrev main_call1_v1 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_17 : Ref sig .tc := ⟨.hbm, 106, rfl⟩
abbrev main_v73 : Ref sig .tc := ⟨.hbm, 107, rfl⟩
abbrev main_v74 : Ref sig .tc := ⟨.hbm, 108, rfl⟩
abbrev main_c_18 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_19 : Ref sig .tc := ⟨.hbm, 116, rfl⟩
abbrev main_v81 : Ref sig .tc := ⟨.hbm, 117, rfl⟩
abbrev main_v82 : Ref sig .tc := ⟨.hbm, 118, rfl⟩
abbrev main_c_20 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_21 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem1_0 : DmaSem sig := 7
abbrev cc2_sem2_0 : DmaSem sig := 8
abbrev cc2_sem3_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S85x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S85x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S5625x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S5625x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S250x113 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S113x5 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x5 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S250x5 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  inb_S85x256_S85x256_0_0 : ∀ a, (![0, 0] : Fin 2 → Nat) a + S85x256.size a ≤ S85x256.size a
  h_S85x256 : 0 < S85x256.numel
  bitsLt_bf16_f32 : FTy.bits .bf16 < FTy.bits .f32
  inb_S256x200_S256x200_0_0 : ∀ a, (![0, 0] : Fin 2 → Nat) a + S256x200.size a ≤ S256x200.size a
  h_S256x200 : 0 < S256x200.numel
  inb_S85x200_S85x200_0_0 : ∀ a, (![0, 0] : Fin 2 → Nat) a + S85x200.size a ≤ S85x200.size a
  h_S85x200 : 0 < S85x200.numel
  slices_S2x1360_S1x1360_0_0 : S2x1360.Slices ![0, 0] S1x1360
  shapeCasts_S1x1360_S1360 : S1x1360.ShapeCasts S1360
  concatenates_S1360_S85_S1445_d0 : Shape.Concatenates [S1360, S85] S1445 0
  slices_S2x1360_S1x1360_1_0 : S2x1360.Slices ![1, 0] S1x1360
  bcast_S_S1445 : S_.BroadcastsInDim S1445 (![] : Fin 0 → Fin S1445.rank)
  bcast_S_S85 : S_.BroadcastsInDim S85 (![] : Fin 0 → Fin S85.rank)
  bcast_S1445_S1445x1_0 : S1445.BroadcastsInDim S1445x1 (![0] : Fin 1 → Fin S1445x1.rank)
  bcast_S1445x1_S1445x200_0_1 : S1445x1.BroadcastsInDim S1445x200 (![0, 1] : Fin 2 → Fin S1445x200.rank)
  bcast_S_S85x200 : S_.BroadcastsInDim S85x200 (![] : Fin 0 → Fin S85x200.rank)
  bcast_S200_S1x200_1 : S200.BroadcastsInDim S1x200 (![1] : Fin 1 → Fin S1x200.rank)
  bcast_S1x200_S85x200_0_1 : S1x200.BroadcastsInDim S85x200 (![0, 1] : Fin 2 → Fin S85x200.rank)
  shapeCasts_S85x200_S250x68 : S85x200.ShapeCasts S250x68
  inb_S5625x128_S5625x128_0_0 : ∀ a, (![0, 0] : Fin 2 → Nat) a + S5625x128.size a ≤ S5625x128.size a
  h_S5625x128 : 0 < S5625x128.numel
  inb_S128x2_S128x2_0_0 : ∀ a, (![0, 0] : Fin 2 → Nat) a + S128x2.size a ≤ S128x2.size a
  h_S128x2 : 0 < S128x2.numel
  inb_S5625x2_S5625x2_0_0 : ∀ a, (![0, 0] : Fin 2 → Nat) a + S5625x2.size a ≤ S5625x2.size a
  h_S5625x2 : 0 < S5625x2.numel
  slices_S2x180000_S1x180000_0_0 : S2x180000.Slices ![0, 0] S1x180000
  shapeCasts_S1x180000_S180000 : S1x180000.ShapeCasts S180000
  concatenates_S180000_S5625_S185625_d0 : Shape.Concatenates [S180000, S5625] S185625 0
  slices_S2x180000_S1x180000_1_0 : S2x180000.Slices ![1, 0] S1x180000
  bcast_S_S185625 : S_.BroadcastsInDim S185625 (![] : Fin 0 → Fin S185625.rank)
  bcast_S_S5625 : S_.BroadcastsInDim S5625 (![] : Fin 0 → Fin S5625.rank)
  bcast_S185625_S185625x1_0 : S185625.BroadcastsInDim S185625x1 (![0] : Fin 1 → Fin S185625x1.rank)
  bcast_S185625x1_S185625x2_0_1 : S185625x1.BroadcastsInDim S185625x2 (![0, 1] : Fin 2 → Fin S185625x2.rank)
  bcast_S_S5625x2 : S_.BroadcastsInDim S5625x2 (![] : Fin 0 → Fin S5625x2.rank)
  bcast_S2_S1x2_1 : S2.BroadcastsInDim S1x2 (![1] : Fin 1 → Fin S1x2.rank)
  bcast_S1x2_S5625x2_0_1 : S1x2.BroadcastsInDim S5625x2 (![0, 1] : Fin 2 → Fin S5625x2.rank)
  shapeCasts_S5625x2_S250x45 : S5625x2.ShapeCasts S250x45
  concatenates_S250x68_S250x45_S250x113_d1 : Shape.Concatenates [S250x68, S250x45] S250x113 1
  shapeCasts_S5_S1x5 : S5.ShapeCasts S1x5
  inb_S250x113_S250x113_0_0 : ∀ a, (![0, 0] : Fin 2 → Nat) a + S250x113.size a ≤ S250x113.size a
  h_S250x113 : 0 < S250x113.numel
  shapeCasts_S250x113_S250x113 : S250x113.ShapeCasts S250x113
  inb_S113x5_S113x5_0_0 : ∀ a, (![0, 0] : Fin 2 → Nat) a + S113x5.size a ≤ S113x5.size a
  h_S113x5 : 0 < S113x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S250x5 : S1x5.Broadcasts S250x5
  inb_S250x5_S250x5_0_0 : ∀ a, (![0, 0] : Fin 2 → Nat) a + S250x5.size a ≤ S250x5.size a
  h_S250x5 : 0 < S250x5.numel
  dot_S85x256_S256x200_S85x200_1_0_0_1_n_n_wf : DotDims.WF S85x256 S256x200 S85x200 [1] [0] [0] [1] [] []
  scatter_S85_S1445x1_S1445_n_0_0_1_wf : ScatterDims.WF S85 S1445x1 S1445 [] [0] [0] 1
  gather_S85_S1445x1_S1445_n_0_n_n_0_1_1_wf : GatherDims.WF S85 S1445x1 S1445 [] [0] [] [0] [] 1 ![1]
  gather_S85x200_S1445x1_S1445x200_1_0_n_n_0_1_1200_wf : GatherDims.WF S85x200 S1445x1 S1445x200 [1] [0] [] [0] [] 1 ![1, 200]
  scatter_S85x200_S1445x1_S1445x200_1_0_0_1_wf : ScatterDims.WF S85x200 S1445x1 S1445x200 [1] [0] [0] 1
  dot_S5625x128_S128x2_S5625x2_1_0_0_1_n_n_wf : DotDims.WF S5625x128 S128x2 S5625x2 [1] [0] [0] [1] [] []
  scatter_S5625_S185625x1_S185625_n_0_0_1_wf : ScatterDims.WF S5625 S185625x1 S185625 [] [0] [0] 1
  gather_S5625_S185625x1_S185625_n_0_n_n_0_1_1_wf : GatherDims.WF S5625 S185625x1 S185625 [] [0] [] [0] [] 1 ![1]
  gather_S5625x2_S185625x1_S185625x2_1_0_n_n_0_1_12_wf : GatherDims.WF S5625x2 S185625x1 S185625x2 [1] [0] [] [0] [] 1 ![1, 2]
  scatter_S5625x2_S185625x1_S185625x2_1_0_0_1_wf : ScatterDims.WF S5625x2 S185625x1 S185625x2 [1] [0] [0] 1
  dot_S250x113_S113x5_S250x5_1_0_0_1_n_n_wf : DotDims.WF S250x113 S113x5 S250x5 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S85x256.size a ≤ S85x256.size a
  hwx0_0 : ∀ i : grid0.Coords, EltTy.bits .f32 = 32 ∨ (Rect.block (s := S85x256) S85x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x200.size a ≤ S256x200.size a
  hwx0_1 : ∀ i : grid0.Coords, EltTy.bits .f32 = 32 ∨ (Rect.block (s := S256x200) S256x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S85x200.size a ≤ S85x200.size a
  hwx0_2 : ∀ i : grid0.Coords, EltTy.bits .f32 = 32 ∨ (Rect.block (s := S85x200) S85x200.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S5625x128.size a ≤ S5625x128.size a
  hwx1_0 : ∀ i : grid1.Coords, EltTy.bits .f32 = 32 ∨ (Rect.block (s := S5625x128) S5625x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x2.size a ≤ S128x2.size a
  hwx1_1 : ∀ i : grid1.Coords, EltTy.bits .f32 = 32 ∨ (Rect.block (s := S128x2) S128x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5625x2.size a ≤ S5625x2.size a
  hwx1_2 : ∀ i : grid1.Coords, EltTy.bits .f32 = 32 ∨ (Rect.block (s := S5625x2) S5625x2.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S250x113.size a ≤ S250x113.size a
  hwx2_0 : ∀ i : grid2.Coords, EltTy.bits .f32 = 32 ∨ (Rect.block (s := S250x113) S250x113.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S113x5.size a ≤ S113x5.size a
  hwx2_1 : ∀ i : grid2.Coords, EltTy.bits .f32 = 32 ∨ (Rect.block (s := S113x5) S113x5.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x5.size a ≤ S1x5.size a
  hwx2_2 : ∀ i : grid2.Coords, EltTy.bits .f32 = 32 ∨ (Rect.block (s := S1x5) S1x5.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S250x5.size a ≤ S250x5.size a
  hwx2_3 : ∀ i : grid2.Coords, EltTy.bits .f32 = 32 ∨ (Rect.block (s := S250x5) S250x5.size (cc2_transform_3 i) (hinb2_3 i)).WholeWords (EltTy.packing .f32)

variable [Facts₀]

def dot_S85x256_S256x200_S85x200_1_0_0_1_n_n : DotDims S85x256 S256x200 S85x200 where
  lhsContracting := [1]
  rhsContracting := [0]
  lhsNonContracting := [0]
  rhsNonContracting := [1]
  lhsBatch := []
  rhsBatch := []
  wf := dot_S85x256_S256x200_S85x200_1_0_0_1_n_n_wf
def scatter_S85_S1445x1_S1445_n_0_0_1 : ScatterDims S85 S1445x1 S1445 where
  updateWindowDims := []
  insertedWindowDims := [0]
  scatterDimsToOperandDims := [0]
  indexVectorDim := 1
  wf := scatter_S85_S1445x1_S1445_n_0_0_1_wf
def gather_S85_S1445x1_S1445_n_0_n_n_0_1_1 : GatherDims S85 S1445x1 S1445 where
  offsetDims := []
  collapsedSliceDims := [0]
  operandBatchingDims := []
  startIndicesBatchingDims := []
  startIndexMap := [0]
  indexVectorDim := 1
  sliceSizes := ![1]
  wf := gather_S85_S1445x1_S1445_n_0_n_n_0_1_1_wf
def gather_S85x200_S1445x1_S1445x200_1_0_n_n_0_1_1200 : GatherDims S85x200 S1445x1 S1445x200 where
  offsetDims := [1]
  collapsedSliceDims := [0]
  operandBatchingDims := []
  startIndicesBatchingDims := []
  startIndexMap := [0]
  indexVectorDim := 1
  sliceSizes := ![1, 200]
  wf := gather_S85x200_S1445x1_S1445x200_1_0_n_n_0_1_1200_wf
def scatter_S85x200_S1445x1_S1445x200_1_0_0_1 : ScatterDims S85x200 S1445x1 S1445x200 where
  updateWindowDims := [1]
  insertedWindowDims := [0]
  scatterDimsToOperandDims := [0]
  indexVectorDim := 1
  wf := scatter_S85x200_S1445x1_S1445x200_1_0_0_1_wf
def dot_S5625x128_S128x2_S5625x2_1_0_0_1_n_n : DotDims S5625x128 S128x2 S5625x2 where
  lhsContracting := [1]
  rhsContracting := [0]
  lhsNonContracting := [0]
  rhsNonContracting := [1]
  lhsBatch := []
  rhsBatch := []
  wf := dot_S5625x128_S128x2_S5625x2_1_0_0_1_n_n_wf
def scatter_S5625_S185625x1_S185625_n_0_0_1 : ScatterDims S5625 S185625x1 S185625 where
  updateWindowDims := []
  insertedWindowDims := [0]
  scatterDimsToOperandDims := [0]
  indexVectorDim := 1
  wf := scatter_S5625_S185625x1_S185625_n_0_0_1_wf
def gather_S5625_S185625x1_S185625_n_0_n_n_0_1_1 : GatherDims S5625 S185625x1 S185625 where
  offsetDims := []
  collapsedSliceDims := [0]
  operandBatchingDims := []
  startIndicesBatchingDims := []
  startIndexMap := [0]
  indexVectorDim := 1
  sliceSizes := ![1]
  wf := gather_S5625_S185625x1_S185625_n_0_n_n_0_1_1_wf
def gather_S5625x2_S185625x1_S185625x2_1_0_n_n_0_1_12 : GatherDims S5625x2 S185625x1 S185625x2 where
  offsetDims := [1]
  collapsedSliceDims := [0]
  operandBatchingDims := []
  startIndicesBatchingDims := []
  startIndexMap := [0]
  indexVectorDim := 1
  sliceSizes := ![1, 2]
  wf := gather_S5625x2_S185625x1_S185625x2_1_0_n_n_0_1_12_wf
def scatter_S5625x2_S185625x1_S185625x2_1_0_0_1 : ScatterDims S5625x2 S185625x1 S185625x2 where
  updateWindowDims := [1]
  insertedWindowDims := [0]
  scatterDimsToOperandDims := [0]
  indexVectorDim := 1
  wf := scatter_S5625x2_S185625x1_S185625x2_1_0_0_1_wf
def dot_S250x113_S113x5_S250x5_1_0_0_1_n_n : DotDims S250x113 S113x5 S250x5 where
  lhsContracting := [1]
  rhsContracting := [0]
  lhsNonContracting := [0]
  rhsNonContracting := [1]
  lhsBatch := []
  rhsBatch := []
  wf := dot_S250x113_S113x5_S250x5_1_0_0_1_n_n_wf

abbrev win0_0 : Pipeline.Window sig grid0 :=
  Pipeline.Window.ofSpec (Memref.whole main_arg0) S85x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S85x200.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5625x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5625x2.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v98) S250x113.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S113x5.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v99) S1x5.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v100) S250x5.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S85x256 : Shape := ⟨2, ![85, 256]⟩
abbrev S5625x128 : Shape := ⟨2, ![5625, 128]⟩
abbrev S256x200 : Shape := ⟨2, ![256, 200]⟩
abbrev S200 : Shape := ⟨1, ![200]⟩
abbrev S128x2 : Shape := ⟨2, ![128, 2]⟩
abbrev S2 : Shape := ⟨1, ![2]⟩
abbrev S113x5 : Shape := ⟨2, ![113, 5]⟩
abbrev S5 : Shape := ⟨1, ![5]⟩
abbrev S2x1360 : Shape := ⟨2, ![2, 1360]⟩
abbrev S2x180000 : Shape := ⟨2, ![2, 180000]⟩
abbrev S85x200 : Shape := ⟨2, ![85, 200]⟩
abbrev S85 : Shape := ⟨1, ![85]⟩
abbrev S1x1360 : Shape := ⟨2, ![1, 1360]⟩
abbrev S1360 : Shape := ⟨1, ![1360]⟩
abbrev S1445 : Shape := ⟨1, ![1445]⟩
abbrev S_ : Shape := ⟨0, ![]⟩
abbrev S1445x1 : Shape := ⟨2, ![1445, 1]⟩
abbrev S1445x200 : Shape := ⟨2, ![1445, 200]⟩
abbrev S1x200 : Shape := ⟨2, ![1, 200]⟩
abbrev S250x68 : Shape := ⟨2, ![250, 68]⟩
abbrev S5625x2 : Shape := ⟨2, ![5625, 2]⟩
abbrev S5625 : Shape := ⟨1, ![5625]⟩
abbrev S1x180000 : Shape := ⟨2, ![1, 180000]⟩
abbrev S180000 : Shape := ⟨1, ![180000]⟩
abbrev S185625 : Shape := ⟨1, ![185625]⟩
abbrev S185625x1 : Shape := ⟨2, ![185625, 1]⟩
abbrev S185625x2 : Shape := ⟨2, ![185625, 2]⟩
abbrev S1x2 : Shape := ⟨2, ![1, 2]⟩
abbrev S250x45 : Shape := ⟨2, ![250, 45]⟩
abbrev S250x113 : Shape := ⟨2, ![250, 113]⟩
abbrev S250x5 : Shape := ⟨2, ![250, 5]⟩
abbrev S1x5 : Shape := ⟨2, ![1, 5]⟩

abbrev nBuf : Space → Nat
  | .hbm => 144
  | .vmem => 0
  | .smem => 0
  | _ => 0

abbrev hbmTy0_0 (i : Nat) : BufTy := match i % 128 with
  | 0 => ⟨S85x256, .f32⟩
  | 1 => ⟨S5625x128, .f32⟩
  | 2 => ⟨S256x200, .f32⟩
  | 3 => ⟨S200, .f32⟩
  | 4 => ⟨S128x2, .f32⟩
  | 5 => ⟨S2, .f32⟩
  | 6 => ⟨S113x5, .f32⟩
  | 7 => ⟨S5, .f32⟩
  | 8 => ⟨S2x1360, .i32⟩
  | 9 => ⟨S2x180000, .i32⟩
  | 10 => ⟨S85x200, .f32⟩
  | 11 => ⟨S85, .i32⟩
  | 12 => ⟨S1x1360, .i32⟩
  | 13 => ⟨S1360, .i32⟩
  | 14 => ⟨S1445, .i32⟩
  | 15 => ⟨S1x1360, .i32⟩
  | 16 => ⟨S1360, .i32⟩
  | 17 => ⟨S1445, .i32⟩
  | 18 => ⟨S_, .f32⟩
  | 19 => ⟨S1445, .f32⟩
  | 20 => ⟨S_, .f32⟩
  | 21 => ⟨S85, .f32⟩
  | 22 => ⟨S1445x1, .i32⟩
  | 23 => ⟨S85, .f32⟩
  | 24 => ⟨S_, .f32⟩
  | 25 => ⟨S85, .f32⟩
  | 26 => ⟨S85, .i1⟩
  | 27 => ⟨S_, .f32⟩
  | 28 => ⟨S85, .f32⟩
  | 29 => ⟨S85, .f32⟩
  | 30 => ⟨S_, .f32⟩
  | 31 => ⟨S_, .f32⟩
  | 32 => ⟨S85, .f32⟩
  | 33 => ⟨S85, .f32⟩
  | 34 => ⟨S_, .i32⟩
  | 35 => ⟨S1445, .i32⟩
  | 36 => ⟨S1445, .i1⟩
  | 37 => ⟨S_, .i32⟩
  | 38 => ⟨S1445, .i32⟩
  | 39 => ⟨S1445, .i32⟩
  | 40 => ⟨S1445, .i32⟩
  | 41 => ⟨S1445x1, .i32⟩
  | 42 => ⟨S1445, .f32⟩
  | 43 => ⟨S_, .i32⟩
  | 44 => ⟨S1445, .i32⟩
  | 45 => ⟨S1445, .i1⟩
  | 46 => ⟨S_, .i32⟩
  | 47 => ⟨S1445, .i32⟩
  | 48 => ⟨S1445, .i32⟩
  | 49 => ⟨S1445, .i32⟩
  | 50 => ⟨S1445x1, .i32⟩
  | 51 => ⟨S1445, .f32⟩
  | 52 => ⟨S1445, .f32⟩
  | 53 => ⟨S_, .i32⟩
  | 54 => ⟨S1445, .i32⟩
  | 55 => ⟨S1445, .i1⟩
  | 56 => ⟨S_, .i32⟩
  | 57 => ⟨S1445, .i32⟩
  | 58 => ⟨S1445, .i32⟩
  | 59 => ⟨S1445, .i32⟩
  | 60 => ⟨S1445x1, .i32⟩
  | 61 => ⟨S1445x200, .f32⟩
  | 62 => ⟨S1445x1, .f32⟩
  | 63 => ⟨S1445x200, .f32⟩
  | 64 => ⟨S1445x200, .f32⟩
  | 65 => ⟨S_, .f32⟩
  | 66 => ⟨S85x200, .f32⟩
  | 67 => ⟨S1445x1, .i32⟩
  | 68 => ⟨S85x200, .f32⟩
  | 69 => ⟨S1x200, .f32⟩
  | 70 => ⟨S85x200, .f32⟩
  | 71 => ⟨S85x200, .f32⟩
  | 72 => ⟨S250x68, .f32⟩
  | 73 => ⟨S5625x2, .f32⟩
  | 74 => ⟨S5625, .i32⟩
  | 75 => ⟨S1x180000, .i32⟩
  | 76 => ⟨S180000, .i32⟩
  | 77 => ⟨S185625, .i32⟩
  | 78 => ⟨S1x180000, .i32⟩
  | 79 => ⟨S180000, .i32⟩
  | 80 => ⟨S185625, .i32⟩
  | 81 => ⟨S_, .f32⟩
  | 82 => ⟨S185625, .f32⟩
  | 83 => ⟨S_, .f32⟩
  | 84 => ⟨S5625, .f32⟩
  | 85 => ⟨S185625x1, .i32⟩
  | 86 => ⟨S5625, .f32⟩
  | 87 => ⟨S_, .f32⟩
  | 88 => ⟨S5625, .f32⟩
  | 89 => ⟨S5625, .i1⟩
  | 90 => ⟨S_, .f32⟩
  | 91 => ⟨S5625, .f32⟩
  | 92 => ⟨S5625, .f32⟩
  | 93 => ⟨S_, .f32⟩
  | 94 => ⟨S_, .f32⟩
  | 95 => ⟨S5625, .f32⟩
  | 96 => ⟨S5625, .f32⟩
  | 97 => ⟨S_, .i32⟩
  | 98 => ⟨S185625, .i32⟩
  | 99 => ⟨S185625, .i1⟩
  | 100 => ⟨S_, .i32⟩
  | 101 => ⟨S185625, .i32⟩
  | 102 => ⟨S185625, .i32⟩
  | 103 => ⟨S185625, .i32⟩
  | 104 => ⟨S185625x1, .i32⟩
  | 105 => ⟨S185625, .f32⟩
  | 106 => ⟨S_, .i32⟩
  | 107 => ⟨S185625, .i32⟩
  | 108 => ⟨S185625, .i1⟩
  | 109 => ⟨S_, .i32⟩
  | 110 => ⟨S185625, .i32⟩
  | 111 => ⟨S185625, .i32⟩
  | 112 => ⟨S185625, .i32⟩
  | 113 => ⟨S185625x1, .i32⟩
  | 114 => ⟨S185625, .f32⟩
  | 115 => ⟨S185625, .f32⟩
  | 116 => ⟨S_, .i32⟩
  | 117 => ⟨S185625, .i32⟩
  | 118 => ⟨S185625, .i1⟩
  | 119 => ⟨S_, .i32⟩
  | 120 => ⟨S185625, .i32⟩
  | 121 => ⟨S185625, .i32⟩
  | 122 => ⟨S185625, .i32⟩
  | 123 => ⟨S185625x1, .i32⟩
  | 124 => ⟨S185625x2, .f32⟩
  | 125 => ⟨S185625x1, .f32⟩
  | 126 => ⟨S185625x2, .f32⟩
  | 127 => ⟨S185625x2, .f32⟩
  | _ => ⟨S85x256, .f32⟩

abbrev hbmTy0_1 (i : Nat) : BufTy := match i % 128 with
  | 0 => ⟨S_, .f32⟩
  | 1 => ⟨S5625x2, .f32⟩
  | 2 => ⟨S185625x1, .i32⟩
  | 3 => ⟨S5625x2, .f32⟩
  | 4 => ⟨S1x2, .f32⟩
  | 5 => ⟨S5625x2, .f32⟩
  | 6 => ⟨S5625x2, .f32⟩
  | 7 => ⟨S250x45, .f32⟩
  | 8 => ⟨S250x113, .f32⟩
  | 9 => ⟨S_, .f32⟩
  | 10 => ⟨S250x113, .f32⟩
  | 11 => ⟨S250x113, .f32⟩
  | 12 => ⟨S250x5, .f32⟩
  | 13 => ⟨S1x5, .f32⟩
  | 14 => ⟨S250x5, .f32⟩
  | 15 => ⟨S250x5, .f32⟩
  | _ => ⟨S85x256, .f32⟩

abbrev hbmTy (i : Nat) : BufTy := match i / 128 with
  | 0 => hbmTy0_0 i
  | 1 => hbmTy0_1 i
  | _ => ⟨S85x256, .f32⟩

abbrev bufTy : (tb : Table) → Fin (tcTables nBuf tb) → BufTy
  | .hbm, ⟨i, _⟩ => hbmTy i
  | _, _ => ⟨S85x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_cst_14 : Ref sig .tc := ⟨.hbm, 93, rfl⟩
abbrev main_call1_v0 : Ref sig .tc := ⟨.hbm, 94, rfl⟩
abbrev main_call1_v1 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_17 : Ref sig .tc := ⟨.hbm, 106, rfl⟩
abbrev main_v73 : Ref sig .tc := ⟨.hbm, 107, rfl⟩
abbrev main_v74 : Ref sig .tc := ⟨.hbm, 108, rfl⟩
abbrev main_c_18 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_19 : Ref sig .tc := ⟨.hbm, 116, rfl⟩
abbrev main_v81 : Ref sig .tc := ⟨.hbm, 117, rfl⟩
abbrev main_v82 : Ref sig .tc := ⟨.hbm, 118, rfl⟩
abbrev main_c_20 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_21 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_call2_cst : Ref sig .tc := ⟨.hbm, 137, rfl⟩
abbrev main_call2_v0 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩

abbrev nD : Nat := 1
abbrev τ : Topo := Topo.v7x

variable {F : FTy → Type} [FloatOps F]

class Facts₀ : Prop where
  slices_S2x1360_S1x1360_0_0 : S2x1360.Slices ![0, 0] S1x1360
  shapeCasts_S1x1360_S1360 : S1x1360.ShapeCasts S1360
  concatenates_S1360_S85_S1445_d0 : Shape.Concatenates [S1360, S85] S1445 0
  slices_S2x1360_S1x1360_1_0 : S2x1360.Slices ![1, 0] S1x1360
  bcast_S_S1445 : S_.BroadcastsInDim S1445 (![] : Fin 0 → Fin S1445.rank)
  bcast_S_S85 : S_.BroadcastsInDim S85 (![] : Fin 0 → Fin S85.rank)
  bcast_S1445_S1445x1_0 : S1445.BroadcastsInDim S1445x1 (![0] : Fin 1 → Fin S1445x1.rank)
  bcast_S1445x1_S1445x200_0_1 : S1445x1.BroadcastsInDim S1445x200 (![0, 1] : Fin 2 → Fin S1445x200.rank)
  bcast_S_S85x200 : S_.BroadcastsInDim S85x200 (![] : Fin 0 → Fin S85x200.rank)
  bcast_S200_S1x200_1 : S200.BroadcastsInDim S1x200 (![1] : Fin 1 → Fin S1x200.rank)
  bcast_S1x200_S85x200_0_1 : S1x200.BroadcastsInDim S85x200 (![0, 1] : Fin 2 → Fin S85x200.rank)
  shapeCasts_S85x200_S250x68 : S85x200.ShapeCasts S250x68
  slices_S2x180000_S1x180000_0_0 : S2x180000.Slices ![0, 0] S1x180000
  shapeCasts_S1x180000_S180000 : S1x180000.ShapeCasts S180000
  concatenates_S180000_S5625_S185625_d0 : Shape.Concatenates [S180000, S5625] S185625 0
  slices_S2x180000_S1x180000_1_0 : S2x180000.Slices ![1, 0] S1x180000
  bcast_S_S185625 : S_.BroadcastsInDim S185625 (![] : Fin 0 → Fin S185625.rank)
  bcast_S_S5625 : S_.BroadcastsInDim S5625 (![] : Fin 0 → Fin S5625.rank)
  bcast_S185625_S185625x1_0 : S185625.BroadcastsInDim S185625x1 (![0] : Fin 1 → Fin S185625x1.rank)
  bcast_S185625x1_S185625x2_0_1 : S185625x1.BroadcastsInDim S185625x2 (![0, 1] : Fin 2 → Fin S185625x2.rank)
  bcast_S_S5625x2 : S_.BroadcastsInDim S5625x2 (![] : Fin 0 → Fin S5625x2.rank)
  bcast_S2_S1x2_1 : S2.BroadcastsInDim S1x2 (![1] : Fin 1 → Fin S1x2.rank)
  bcast_S1x2_S5625x2_0_1 : S1x2.BroadcastsInDim S5625x2 (![0, 1] : Fin 2 → Fin S5625x2.rank)
  shapeCasts_S5625x2_S250x45 : S5625x2.ShapeCasts S250x45
  concatenates_S250x68_S250x45_S250x113_d1 : Shape.Concatenates [S250x68, S250x45] S250x113 1
  bcast_S_S250x113 : S_.BroadcastsInDim S250x113 (![] : Fin 0 → Fin S250x113.rank)
  bcast_S5_S1x5_1 : S5.BroadcastsInDim S1x5 (![1] : Fin 1 → Fin S1x5.rank)
  bcast_S1x5_S250x5_0_1 : S1x5.BroadcastsInDim S250x5 (![0, 1] : Fin 2 → Fin S250x5.rank)
  dot_S85x256_S256x200_S85x200_1_0_0_1_n_n_wf : DotDims.WF S85x256 S256x200 S85x200 [1] [0] [0] [1] [] []
  scatter_S85_S1445x1_S1445_n_0_0_1_wf : ScatterDims.WF S85 S1445x1 S1445 [] [0] [0] 1
  gather_S85_S1445x1_S1445_n_0_n_n_0_1_1_wf : GatherDims.WF S85 S1445x1 S1445 [] [0] [] [0] [] 1 ![1]
  gather_S85x200_S1445x1_S1445x200_1_0_n_n_0_1_1200_wf : GatherDims.WF S85x200 S1445x1 S1445x200 [1] [0] [] [0] [] 1 ![1, 200]
  scatter_S85x200_S1445x1_S1445x200_1_0_0_1_wf : ScatterDims.WF S85x200 S1445x1 S1445x200 [1] [0] [0] 1
  dot_S5625x128_S128x2_S5625x2_1_0_0_1_n_n_wf : DotDims.WF S5625x128 S128x2 S5625x2 [1] [0] [0] [1] [] []
  scatter_S5625_S185625x1_S185625_n_0_0_1_wf : ScatterDims.WF S5625 S185625x1 S185625 [] [0] [0] 1
  gather_S5625_S185625x1_S185625_n_0_n_n_0_1_1_wf : GatherDims.WF S5625 S185625x1 S185625 [] [0] [] [0] [] 1 ![1]
  gather_S5625x2_S185625x1_S185625x2_1_0_n_n_0_1_12_wf : GatherDims.WF S5625x2 S185625x1 S185625x2 [1] [0] [] [0] [] 1 ![1, 2]
  scatter_S5625x2_S185625x1_S185625x2_1_0_0_1_wf : ScatterDims.WF S5625x2 S185625x1 S185625x2 [1] [0] [0] 1
  dot_S250x113_S113x5_S250x5_1_0_0_1_n_n_wf : DotDims.WF S250x113 S113x5 S250x5 [1] [0] [0] [1] [] []

variable [Facts₀]

def dot_S85x256_S256x200_S85x200_1_0_0_1_n_n : DotDims S85x256 S256x200 S85x200 where
  lhsContracting := [1]
  rhsContracting := [0]
  lhsNonContracting := [0]
  rhsNonContracting := [1]
  lhsBatch := []
  rhsBatch := []
  wf := dot_S85x256_S256x200_S85x200_1_0_0_1_n_n_wf
def scatter_S85_S1445x1_S1445_n_0_0_1 : ScatterDims S85 S1445x1 S1445 where
  updateWindowDims := []
  insertedWindowDims := [0]
  scatterDimsToOperandDims := [0]
  indexVectorDim := 1
  wf := scatter_S85_S1445x1_S1445_n_0_0_1_wf
def gather_S85_S1445x1_S1445_n_0_n_n_0_1_1 : GatherDims S85 S1445x1 S1445 where
  offsetDims := []
  collapsedSliceDims := [0]
  operandBatchingDims := []
  startIndicesBatchingDims := []
  startIndexMap := [0]
  indexVectorDim := 1
  sliceSizes := ![1]
  wf := gather_S85_S1445x1_S1445_n_0_n_n_0_1_1_wf
def gather_S85x200_S1445x1_S1445x200_1_0_n_n_0_1_1200 : GatherDims S85x200 S1445x1 S1445x200 where
  offsetDims := [1]
  collapsedSliceDims := [0]
  operandBatchingDims := []
  startIndicesBatchingDims := []
  startIndexMap := [0]
  indexVectorDim := 1
  sliceSizes := ![1, 200]
  wf := gather_S85x200_S1445x1_S1445x200_1_0_n_n_0_1_1200_wf
def scatter_S85x200_S1445x1_S1445x200_1_0_0_1 : ScatterDims S85x200 S1445x1 S1445x200 where
  updateWindowDims := [1]
  insertedWindowDims := [0]
  scatterDimsToOperandDims := [0]
  indexVectorDim := 1
  wf := scatter_S85x200_S1445x1_S1445x200_1_0_0_1_wf
def dot_S5625x128_S128x2_S5625x2_1_0_0_1_n_n : DotDims S5625x128 S128x2 S5625x2 where
  lhsContracting := [1]
  rhsContracting := [0]
  lhsNonContracting := [0]
  rhsNonContracting := [1]
  lhsBatch := []
  rhsBatch := []
  wf := dot_S5625x128_S128x2_S5625x2_1_0_0_1_n_n_wf
def scatter_S5625_S185625x1_S185625_n_0_0_1 : ScatterDims S5625 S185625x1 S185625 where
  updateWindowDims := []
  insertedWindowDims := [0]
  scatterDimsToOperandDims := [0]
  indexVectorDim := 1
  wf := scatter_S5625_S185625x1_S185625_n_0_0_1_wf
def gather_S5625_S185625x1_S185625_n_0_n_n_0_1_1 : GatherDims S5625 S185625x1 S185625 where
  offsetDims := []
  collapsedSliceDims := [0]
  operandBatchingDims := []
  startIndicesBatchingDims := []
  startIndexMap := [0]
  indexVectorDim := 1
  sliceSizes := ![1]
  wf := gather_S5625_S185625x1_S185625_n_0_n_n_0_1_1_wf
def gather_S5625x2_S185625x1_S185625x2_1_0_n_n_0_1_12 : GatherDims S5625x2 S185625x1 S185625x2 where
  offsetDims := [1]
  collapsedSliceDims := [0]
  operandBatchingDims := []
  startIndicesBatchingDims := []
  startIndexMap := [0]
  indexVectorDim := 1
  sliceSizes := ![1, 2]
  wf := gather_S5625x2_S185625x1_S185625x2_1_0_n_n_0_1_12_wf
def scatter_S5625x2_S185625x1_S185625x2_1_0_0_1 : ScatterDims S5625x2 S185625x1 S185625x2 where
  updateWindowDims := [1]
  insertedWindowDims := [0]
  scatterDimsToOperandDims := [0]
  indexVectorDim := 1
  wf := scatter_S5625x2_S185625x1_S185625x2_1_0_0_1_wf
def dot_S250x113_S113x5_S250x5_1_0_0_1_n_n : DotDims S250x113 S113x5 S250x5 where
  lhsContracting := [1]
  rhsContracting := [0]
  lhsNonContracting := [0]
  rhsNonContracting := [1]
  lhsBatch := []
  rhsBatch := []
  wf := dot_S250x113_S113x5_S250x5_1_0_0_1_n_n_wf

class Facts : Prop extends Facts₀ where

variable [Facts]
-- ==== Proof.KernelRegions.lean ====
import proofs.«166169_j52991306498332_1_alg».proof.Proof.Gen.KernelIdeal.Frame
import Idealize.ShloMosaic.Lib.Pipeline.Value

/-!
  The three kernel regions, one at a time. Every grid has ONE point and every window's block is its whole array, at block
  index (0, 0): so a window's block read off an array is the array, the block a point writes back is the whole output, and
  the output array after the region is the body's one stored value computed from the input arrays as the region finds
  them. Region 0 leaves x·W (one matrix product into a zero accumulator), region 1 the same at its sizes, region 2 the
  product of the positive part of its first operand with its second plus the row vector broadcast over the rows.
-/

set_option maxRecDepth 16384

noncomputable section

namespace Cert.KernelIdeal.Regions

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- The offset (0, 0) of every access is the zero offset. -/
theorem off_zero : (![0, 0] : Fin 2 → Nat) = fun _ => 0 := funext fun a => by fin_cases a <;> rfl

/-! ## Region 0 -/

/-- At the one grid point every window of region 0 sits at block index (0, 0). -/
theorem idx0 : ∀ t : Fin cfg0.N, (∀ a : Fin 2, win0_0.index t a = 0) ∧ (∀ a : Fin 2, win0_1.index t a = 0)
    ∧ (∀ a : Fin 2, win0_2.index t a = 0) :=
  (by decide +kernel : ∀ t : Fin grid0.N, _)

/-- Window 0's block read off an array is the array. -/
theorem read0_0 (t : Fin cfg0.N) (A : Vec F S85x256 .f32) : View.read (Elt F) ((cfg0.win 0).blk t).view A = A := by
  funext y
  show A (((cfg0.win 0).blk t).view.emb y) = A y
  refine congrArg A (funext fun a => Fin.ext ?_)
  have h := (idx0 t).1
  match a with
  | ⟨0, _⟩ => show win0_0.index t (0 : Fin 2) * 85 + 1 * (y 0).val = (y 0).val; rw [h 0]; omega
  | ⟨1, _⟩ => show win0_0.index t (1 : Fin 2) * 256 + 1 * (y 1).val = (y 1).val; rw [h 1]; omega

/-- Window 1's block read off an array is the array. -/
theorem read0_1 (t : Fin cfg0.N) (A : Vec F S256x200 .f32) : View.read (Elt F) ((cfg0.win 1).blk t).view A = A := by
  funext y
  show A (((cfg0.win 1).blk t).view.emb y) = A y
  refine congrArg A (funext fun a => Fin.ext ?_)
  have h := (idx0 t).2.1
  match a with
  | ⟨0, _⟩ => show win0_1.index t (0 : Fin 2) * 256 + 1 * (y 0).val = (y 0).val; rw [h 0]; omega
  | ⟨1, _⟩ => show win0_1.index t (1 : Fin 2) * 200 + 1 * (y 1).val = (y 1).val; rw [h 1]; omega

/-- Window 2's block read off an array is the array. -/
theorem read0_2 (t : Fin cfg0.N) (A : Vec F S85x200 .f32) : View.read (Elt F) ((cfg0.win 2).blk t).view A = A := by
  funext y
  show A (((cfg0.win 2).blk t).view.emb y) = A y
  refine congrArg A (funext fun a => Fin.ext ?_)
  have h := (idx0 t).2.2
  match a with
  | ⟨0, _⟩ => show win0_2.index t (0 : Fin 2) * 85 + 1 * (y 0).val = (y 0).val; rw [h 0]; omega
  | ⟨1, _⟩ => show win0_2.index t (1 : Fin 2) * 200 + 1 * (y 1).val = (y 1).val; rw [h 1]; omega

/-- Every index of the output array lies in the one point's block. -/
theorem cover0 (i : S85x200.Idx) : i ∈ ((cfg0.win 2).blk t0_0).view.set := by
  show i ∈ ((View.whole main_v0).slice (win0_2.rect t0_0)).set
  rw [View.set_slice_whole, Rect.mem_set_unit]
  intro a
  have h := (idx0 t0_0).2.2
  match a with
  | ⟨0, _⟩ =>
    show win0_2.index t0_0 (0 : Fin 2) * 85 ≤ (i 0).val ∧ (i 0).val < win0_2.index t0_0 (0 : Fin 2) * 85 + 85
    have hi : (i 0).val < 85 := (i 0).isLt
    rw [h 0]; omega
  | ⟨1, _⟩ =>
    show win0_2.index t0_0 (1 : Fin 2) * 200 ≤ (i 1).val ∧ (i 1).val < win0_2.index t0_0 (1 : Fin 2) * 200 + 200
    have hi : (i 1).val < 200 := (i 1).isLt
    rw [h 1]; omega

/-- The body's one store, over whole loads, leaves its stored value: the matrix product of the two loads. -/
theorem out0_2_eq (x0 : Vec F S85x256 .f32) (x1 : Vec F S256x200 .f32) : out0_2 x0 x1 = k0_pay1 x0 x1 := by
  unfold out0_2
  rw [View.canon_unit_zero off_zero]
  simp only [View.ld_unit_zero (S := S85x256) off_zero, View.ld_unit_zero (S := S256x200) off_zero]

/-- After region 0 its output array holds the body's value of the two input arrays as the region finds them. -/
theorem region0_out (c : Dev nD) : (dat0 V c).arrAt 2 cfg0.N = out0_2 (V c main_arg0) (V c main_arg2) := by
  refine (dat0 V c).arrAt_eq_of_cover 2 _ (fun t _ => ?_) (fun i => ⟨t0_0, rfl, cover0 i⟩)
  show (cfg0.win 2).cut (grid0.coords t) ((dat0 V c).after 2 t) = _
  rw [after0_2]
  show out0_2 (View.read (Elt F) ((cfg0.win 0).blk t).view (V c main_arg0 : Vec F S85x256 .f32))
      (View.read (Elt F) ((cfg0.win 1).blk t).view (V c main_arg2 : Vec F S256x200 .f32))
    = View.read (Elt F) ((cfg0.win 2).blk t).view (out0_2 (V c main_arg0) (V c main_arg2) : Vec F S85x200 .f32)
  rw [read0_0, read0_1, read0_2]

/-! ## Region 1 -/

/-- At the one grid point every window of region 1 sits at block index (0, 0). -/
theorem idx1 : ∀ t : Fin cfg1.N, (∀ a : Fin 2, win1_0.index t a = 0) ∧ (∀ a : Fin 2, win1_1.index t a = 0)
    ∧ (∀ a : Fin 2, win1_2.index t a = 0) :=
  (by decide +kernel : ∀ t : Fin grid1.N, _)

/-- Window 0's block read off an array is the array. -/
theorem read1_0 (t : Fin cfg1.N) (A : Vec F S5625x128 .f32) : View.read (Elt F) ((cfg1.win 0).blk t).view A = A := by
  funext y
  show A (((cfg1.win 0).blk t).view.emb y) = A y
  refine congrArg A (funext fun a => Fin.ext ?_)
  have h := (idx1 t).1
  match a with
  | ⟨0, _⟩ => show win1_0.index t (0 : Fin 2) * 5625 + 1 * (y 0).val = (y 0).val; rw [h 0]; omega
  | ⟨1, _⟩ => show win1_0.index t (1 : Fin 2) * 128 + 1 * (y 1).val = (y 1).val; rw [h 1]; omega

/-- Window 1's block read off an array is the array. -/
theorem read1_1 (t : Fin cfg1.N) (A : Vec F S128x2 .f32) : View.read (Elt F) ((cfg1.win 1).blk t).view A = A := by
  funext y
  show A (((cfg1.win 1).blk t).view.emb y) = A y
  refine congrArg A (funext fun a => Fin.ext ?_)
  have h := (idx1 t).2.1
  match a with
  | ⟨0, _⟩ => show win1_1.index t (0 : Fin 2) * 128 + 1 * (y 0).val = (y 0).val; rw [h 0]; omega
  | ⟨1, _⟩ => show win1_1.index t (1 : Fin 2) * 2 + 1 * (y 1).val = (y 1).val; rw [h 1]; omega

/-- Window 2's block read off an array is the array. -/
theorem read1_2 (t : Fin cfg1.N) (A : Vec F S5625x2 .f32) : View.read (Elt F) ((cfg1.win 2).blk t).view A = A := by
  funext y
  show A (((cfg1.win 2).blk t).view.emb y) = A y
  refine congrArg A (funext fun a => Fin.ext ?_)
  have h := (idx1 t).2.2
  match a with
  | ⟨0, _⟩ => show win1_2.index t (0 : Fin 2) * 5625 + 1 * (y 0).val = (y 0).val; rw [h 0]; omega
  | ⟨1, _⟩ => show win1_2.index t (1 : Fin 2) * 2 + 1 * (y 1).val = (y 1).val; rw [h 1]; omega

/-- Every index of the output array lies in the one point's block. -/
theorem cover1 (i : S5625x2.Idx) : i ∈ ((cfg1.win 2).blk t1_0).view.set := by
  show i ∈ ((View.whole main_v49).slice (win1_2.rect t1_0)).set
  rw [View.set_slice_whole, Rect.mem_set_unit]
  intro a
  have h := (idx1 t1_0).2.2
  match a with
  | ⟨0, _⟩ =>
    show win1_2.index t1_0 (0 : Fin 2) * 5625 ≤ (i 0).val ∧ (i 0).val < win1_2.index t1_0 (0 : Fin 2) * 5625 + 5625
    have hi : (i 0).val < 5625 := (i 0).isLt
    rw [h 0]; omega
  | ⟨1, _⟩ =>
    show win1_2.index t1_0 (1 : Fin 2) * 2 ≤ (i 1).val ∧ (i 1).val < win1_2.index t1_0 (1 : Fin 2) * 2 + 2
    have hi : (i 1).val < 2 := (i 1).isLt
    rw [h 1]; omega

/-- The body's one store, over whole loads, leaves its stored value: the matrix product of the two loads. -/
theorem out1_2_eq (x0 : Vec F S5625x128 .f32) (x1 : Vec F S128x2 .f32) : out1_2 x0 x1 = k1_pay1 x0 x1 := by
  unfold out1_2
  rw [View.canon_unit_zero off_zero]
  simp only [View.ld_unit_zero (S := S5625x128) off_zero, View.ld_unit_zero (S := S128x2) off_zero]

/-- After region 1 its output array holds the body's value of the two input arrays as the region finds them. -/
theorem region1_out (c : Dev nD) : (dat1 V c).arrAt 2 cfg1.N = out1_2 (V c main_arg1) (V c main_arg4) := by
  refine (dat1 V c).arrAt_eq_of_cover 2 _ (fun t _ => ?_) (fun i => ⟨t1_0, rfl, cover1 i⟩)
  show (cfg1.win 2).cut (grid1.coords t) ((dat1 V c).after 2 t) = _
  rw [after1_2]
  show out1_2 (View.read (Elt F) ((cfg1.win 0).blk t).view (V c main_arg1 : Vec F S5625x128 .f32))
      (View.read (Elt F) ((cfg1.win 1).blk t).view (V c main_arg4 : Vec F S128x2 .f32))
    = View.read (Elt F) ((cfg1.win 2).blk t).view (out1_2 (V c main_arg1) (V c main_arg4) : Vec F S5625x2 .f32)
  rw [read1_0, read1_1, read1_2]

/-! ## Region 2 -/

/-- At the one grid point every window of region 2 sits at block index (0, 0). -/
theorem idx2 : ∀ t : Fin cfg2.N, (∀ a : Fin 2, win2_0.index t a = 0) ∧ (∀ a : Fin 2, win2_1.index t a = 0)
    ∧ (∀ a : Fin 2, win2_2.index t a = 0) ∧ (∀ a : Fin 2, win2_3.index t a = 0) :=
  (by decide +kernel : ∀ t : Fin grid2.N, _)

/-- Window 0's block read off an array is the array. -/
theorem read2_0 (t : Fin cfg2.N) (A : Vec F S250x113 .f32) : View.read (Elt F) ((cfg2.win 0).blk t).view A = A := by
  funext y
  show A (((cfg2.win 0).blk t).view.emb y) = A y
  refine congrArg A (funext fun a => Fin.ext ?_)
  have h := (idx2 t).1
  match a with
  | ⟨0, _⟩ => show win2_0.index t (0 : Fin 2) * 250 + 1 * (y 0).val = (y 0).val; rw [h 0]; omega
  | ⟨1, _⟩ => show win2_0.index t (1 : Fin 2) * 113 + 1 * (y 1).val = (y 1).val; rw [h 1]; omega

/-- Window 1's block read off an array is the array. -/
theorem read2_1 (t : Fin cfg2.N) (A : Vec F S113x5 .f32) : View.read (Elt F) ((cfg2.win 1).blk t).view A = A := by
  funext y
  show A (((cfg2.win 1).blk t).view.emb y) = A y
  refine congrArg A (funext fun a => Fin.ext ?_)
  have h := (idx2 t).2.1
  match a with
  | ⟨0, _⟩ => show win2_1.index t (0 : Fin 2) * 113 + 1 * (y 0).val = (y 0).val; rw [h 0]; omega
  | ⟨1, _⟩ => show win2_1.index t (1 : Fin 2) * 5 + 1 * (y 1).val = (y 1).val; rw [h 1]; omega

/-- Window 2's block read off an array is the array. -/
theorem read2_2 (t : Fin cfg2.N) (A : Vec F S1x5 .f32) : View.read (Elt F) ((cfg2.win 2).blk t).view A = A := by
  funext y
  show A (((cfg2.win 2).blk t).view.emb y) = A y
  refine congrArg A (funext fun a => Fin.ext ?_)
  have h := (idx2 t).2.2.1
  match a with
  | ⟨0, _⟩ => show win2_2.index t (0 : Fin 2) * 1 + 1 * (y 0).val = (y 0).val; rw [h 0]; omega
  | ⟨1, _⟩ => show win2_2.index t (1 : Fin 2) * 5 + 1 * (y 1).val = (y 1).val; rw [h 1]; omega

/-- Window 3's block read off an array is the array. -/
theorem read2_3 (t : Fin cfg2.N) (A : Vec F S250x5 .f32) : View.read (Elt F) ((cfg2.win 3).blk t).view A = A := by
  funext y
  show A (((cfg2.win 3).blk t).view.emb y) = A y
  refine congrArg A (funext fun a => Fin.ext ?_)
  have h := (idx2 t).2.2.2
  match a with
  | ⟨0, _⟩ => show win2_3.index t (0 : Fin 2) * 250 + 1 * (y 0).val = (y 0).val; rw [h 0]; omega
  | ⟨1, _⟩ => show win2_3.index t (1 : Fin 2) * 5 + 1 * (y 1).val = (y 1).val; rw [h 1]; omega

/-- Every index of the output array lies in the one point's block. -/
theorem cover2 (i : S250x5.Idx) : i ∈ ((cfg2.win 3).blk t2_0).view.set := by
  show i ∈ ((View.whole main_v100).slice (win2_3.rect t2_0)).set
  rw [View.set_slice_whole, Rect.mem_set_unit]
  intro a
  have h := (idx2 t2_0).2.2.2
  match a with
  | ⟨0, _⟩ =>
    show win2_3.index t2_0 (0 : Fin 2) * 250 ≤ (i 0).val ∧ (i 0).val < win2_3.index t2_0 (0 : Fin 2) * 250 + 250
    have hi : (i 0).val < 250 := (i 0).isLt
    rw [h 0]; omega
  | ⟨1, _⟩ =>
    show win2_3.index t2_0 (1 : Fin 2) * 5 ≤ (i 1).val ∧ (i 1).val < win2_3.index t2_0 (1 : Fin 2) * 5 + 5
    have hi : (i 1).val < 5 := (i 1).isLt
    rw [h 1]; omega

/-- The body's one store, over whole loads, leaves its stored value. -/
theorem out2_3_eq (x0 : Vec F S250x113 .f32) (x1 : Vec F S113x5 .f32) (x2 : Vec F S1x5 .f32) :
    out2_3 x0 x1 x2 = k2_pay1 x0 x1 x2 := by
  unfold out2_3
  rw [View.canon_unit_zero off_zero]
  simp only [View.ld_unit_zero (S := S250x113) off_zero, View.ld_unit_zero (S := S113x5) off_zero,
    View.ld_unit_zero (S := S1x5) off_zero]

/-- After region 2 its output array holds the body's value of the three input arrays as the region finds them. -/
theorem region2_out (c : Dev nD) :
    (dat2 V c).arrAt 3 cfg2.N = out2_3 (V c main_v98) (V c main_arg6) (V c main_v99) := by
  refine (dat2 V c).arrAt_eq_of_cover 3 _ (fun t _ => ?_) (fun i => ⟨t2_0, rfl, cover2 i⟩)
  show (cfg2.win 3).cut (grid2.coords t) ((dat2 V c).after 3 t) = _
  rw [after2_3]
  show out2_3 (View.read (Elt F) ((cfg2.win 0).blk t).view (V c main_v98 : Vec F S250x113 .f32))
      (View.read (Elt F) ((cfg2.win 1).blk t).view (V c main_arg6 : Vec F S113x5 .f32))
      (View.read (Elt F) ((cfg2.win 2).blk t).view (V c main_v99 : Vec F S1x5 .f32))
    = View.read (Elt F) ((cfg2.win 3).blk t).view (out2_3 (V c main_v98) (V c main_arg6) (V c main_v99) : Vec F S250x5 .f32)
  rw [read2_0, read2_1, read2_2, read2_3]

end Cert.KernelIdeal.Regions

end
-- ==== Proof.GcnSpec.lean ====
import proofs.«166169_j52991306498332_1_alg».proof.ReferenceIdeal
import proofs.«166169_j52991306498332_1_alg».proof.Proof.Gen.ReferenceIdeal

/-!
  The graph-convolution layer both programs apply on the host to a projected feature matrix h, as ONE function of h, the
  edge list e (row 0 the sources, row 1 the destinations) and the bias b, at each layer's sizes:

    src, dst  = e's rows, each followed by the self-loops 0 … n-1
    deg       = the scatter-add of ones at dst into zeros          (a node's in-degree, self-loop included)
    dinv      = deg^(-1/2) where deg > 0, else 0
    norm      = dinv[src] · dinv[dst]                               (negative indices wrapped by n before each gather)
    out       = the scatter-add at dst of h[src] · norm (norm broadcast along the features) into zeros, plus b on every row

  then re-laid to 250 rows. And the last step, `head`: the positive part of the joined features times the final weights
  plus the final bias on every row. Nothing here is computed: the functions are compositions of the host operations, and
  the two programs are shown to apply exactly these compositions to their own projected features.
-/

noncomputable section

namespace Cert.ReferenceIdeal.Spec

open Cert.ReferenceIdeal Cert.ReferenceIdeal.Facts₀ Cert.ReferenceIdeal.Facts Idealize.ShloMosaic

variable {F : FTy → Type} [FloatOps F]

/-! ## Layer 1: 85 nodes, 1360 edges, 200 features -/

/-- Row `r` of the edge list followed by the self-loops. -/
def ends1 (r : Fin 2) (e : (⟨S2x1360, .i32⟩ : BufTy).Contents (Elt F)) : (⟨S1445, .i32⟩ : BufTy).Contents (Elt F) :=
  match r with
  | 0 => concatenate S1445 0 [⟨S1360, (shapeCast _ (extractStridedSlice S1x1360 ![0, 0] e slices_S2x1360_S1x1360_0_0) shapeCasts_S1x1360_S1360)⟩, ⟨S85, (iotaInDim S85 32 0)⟩] concatenates_S1360_S85_S1445_d0
  | 1 => concatenate S1445 0 [⟨S1360, (shapeCast _ (extractStridedSlice S1x1360 ![1, 0] e slices_S2x1360_S1x1360_1_0) shapeCasts_S1x1360_S1360)⟩, ⟨S85, (iotaInDim S85 32 0)⟩] concatenates_S1360_S85_S1445_d0

/-- A negative index wrapped once by the number of nodes, as a column of gather or scatter indices. -/
def wrapCol1 (x : (⟨S1445, .i32⟩ : BufTy).Contents (Elt F)) : (⟨S1445x1, .i32⟩ : BufTy).Contents (Elt F) :=
  broadcastInDim S1445x1 ![0] bcast_S1445_S1445x1_0 (select (cmpi .slt x (broadcastInDim S1445 ![] bcast_S_S1445 (constantI S_ 32 0#32))) (addi x (broadcastInDim S1445 ![] bcast_S_S1445 (constantI S_ 32 85#32))) x)

/-- deg^(-1/2) where the degree is positive, else 0. -/
def dinv1 (e : (⟨S2x1360, .i32⟩ : BufTy).Contents (Elt F)) : (⟨S85, .f32⟩ : BufTy).Contents (Elt F) :=
  select (cmpf (F := F) .ogt (Host.scatterAdd scatter_S85_S1445x1_S1445_n_0_0_1 (broadcastInDim S85 ![] bcast_S_S85 (constant S_ .f32 0x00000000#32)) (broadcastInDim S1445x1 ![0] bcast_S1445_S1445x1_0 (ends1 1 e)) (broadcastInDim S1445 ![] bcast_S_S1445 (constant S_ .f32 0x3F800000#32))) (broadcastInDim S85 ![] bcast_S_S85 (constant S_ .f32 0x00000000#32))) (Host.powf (Host.scatterAdd scatter_S85_S1445x1_S1445_n_0_0_1 (broadcastInDim S85 ![] bcast_S_S85 (constant S_ .f32 0x00000000#32)) (broadcastInDim S1445x1 ![0] bcast_S1445_S1445x1_0 (ends1 1 e)) (broadcastInDim S1445 ![] bcast_S_S1445 (constant S_ .f32 0x3F800000#32))) (broadcastInDim S85 ![] bcast_S_S85 (constant S_ .f32 0xBF000000#32))) (broadcastInDim S85 ![] bcast_S_S85 (id (constant S_ .f32 0x00000000#32)))

/-- The layer: aggregate the normalised source features at the destinations, add the bias, re-lay to 250 rows. -/
def layer1 (h : (⟨S85x200, .f32⟩ : BufTy).Contents (Elt F)) (e : (⟨S2x1360, .i32⟩ : BufTy).Contents (Elt F))
    (b : (⟨S200, .f32⟩ : BufTy).Contents (Elt F)) : (⟨S250x68, .f32⟩ : BufTy).Contents (Elt F) :=
  shapeCast _ (addf (Host.scatterAdd scatter_S85x200_S1445x1_S1445x200_1_0_0_1 (broadcastInDim S85x200 ![] bcast_S_S85x200 (constant S_ .f32 0x00000000#32)) (broadcastInDim S1445x1 ![0] bcast_S1445_S1445x1_0 (ends1 1 e)) (mulf (Host.gather gather_S85x200_S1445x1_S1445x200_1_0_n_n_0_1_1200 h (wrapCol1 (ends1 0 e))) (broadcastInDim S1445x200 ![0, 1] bcast_S1445x1_S1445x200_0_1 (broadcastInDim S1445x1 ![0] bcast_S1445_S1445x1_0 (mulf (Host.gather gather_S85_S1445x1_S1445_n_0_n_n_0_1_1 (dinv1 e) (wrapCol1 (ends1 0 e))) (Host.gather gather_S85_S1445x1_S1445_n_0_n_n_0_1_1 (dinv1 e) (wrapCol1 (ends1 1 e)))))))) (broadcastInDim S85x200 ![0, 1] bcast_S1x200_S85x200_0_1 (broadcastInDim S1x200 ![1] bcast_S200_S1x200_1 b))) shapeCasts_S85x200_S250x68

/-! ## Layer 2: 5625 nodes, 180000 edges, 2 features -/

/-- Row `r` of the edge list followed by the self-loops. -/
def ends2 (r : Fin 2) (e : (⟨S2x180000, .i32⟩ : BufTy).Contents (Elt F)) : (⟨S185625, .i32⟩ : BufTy).Contents (Elt F) :=
  match r with
  | 0 => concatenate S185625 0 [⟨S180000, (shapeCast _ (extractStridedSlice S1x180000 ![0, 0] e slices_S2x180000_S1x180000_0_0) shapeCasts_S1x180000_S180000)⟩, ⟨S5625, (iotaInDim S5625 32 0)⟩] concatenates_S180000_S5625_S185625_d0
  | 1 => concatenate S185625 0 [⟨S180000, (shapeCast _ (extractStridedSlice S1x180000 ![1, 0] e slices_S2x180000_S1x180000_1_0) shapeCasts_S1x180000_S180000)⟩, ⟨S5625, (iotaInDim S5625 32 0)⟩] concatenates_S180000_S5625_S185625_d0

/-- A negative index wrapped once by the number of nodes, as a column of gather or scatter indices. -/
def wrapCol2 (x : (⟨S185625, .i32⟩ : BufTy).Contents (Elt F)) : (⟨S185625x1, .i32⟩ : BufTy).Contents (Elt F) :=
  broadcastInDim S185625x1 ![0] bcast_S185625_S185625x1_0 (select (cmpi .slt x (broadcastInDim S185625 ![] bcast_S_S185625 (constantI S_ 32 0#32))) (addi x (broadcastInDim S185625 ![] bcast_S_S185625 (constantI S_ 32 5625#32))) x)

/-- deg^(-1/2) where the degree is positive, else 0. -/
def dinv2 (e : (⟨S2x180000, .i32⟩ : BufTy).Contents (Elt F)) : (⟨S5625, .f32⟩ : BufTy).Contents (Elt F) :=
  select (cmpf (F := F) .ogt (Host.scatterAdd scatter_S5625_S185625x1_S185625_n_0_0_1 (broadcastInDim S5625 ![] bcast_S_S5625 (constant S_ .f32 0x00000000#32)) (broadcastInDim S185625x1 ![0] bcast_S185625_S185625x1_0 (ends2 1 e)) (broadcastInDim S185625 ![] bcast_S_S185625 (constant S_ .f32 0x3F800000#32))) (broadcastInDim S5625 ![] bcast_S_S5625 (constant S_ .f32 0x00000000#32))) (Host.powf (Host.scatterAdd scatter_S5625_S185625x1_S185625_n_0_0_1 (broadcastInDim S5625 ![] bcast_S_S5625 (constant S_ .f32 0x00000000#32)) (broadcastInDim S185625x1 ![0] bcast_S185625_S185625x1_0 (ends2 1 e)) (broadcastInDim S185625 ![] bcast_S_S185625 (constant S_ .f32 0x3F800000#32))) (broadcastInDim S5625 ![] bcast_S_S5625 (constant S_ .f32 0xBF000000#32))) (broadcastInDim S5625 ![] bcast_S_S5625 (id (constant S_ .f32 0x00000000#32)))

/-- The layer: aggregate the normalised source features at the destinations, add the bias, re-lay to 250 rows. -/
def layer2 (h : (⟨S5625x2, .f32⟩ : BufTy).Contents (Elt F)) (e : (⟨S2x180000, .i32⟩ : BufTy).Contents (Elt F))
    (b : (⟨S2, .f32⟩ : BufTy).Contents (Elt F)) : (⟨S250x45, .f32⟩ : BufTy).Contents (Elt F) :=
  shapeCast _ (addf (Host.scatterAdd scatter_S5625x2_S185625x1_S185625x2_1_0_0_1 (broadcastInDim S5625x2 ![] bcast_S_S5625x2 (constant S_ .f32 0x00000000#32)) (broadcastInDim S185625x1 ![0] bcast_S185625_S185625x1_0 (ends2 1 e)) (mulf (Host.gather gather_S5625x2_S185625x1_S185625x2_1_0_n_n_0_1_12 h (wrapCol2 (ends2 0 e))) (broadcastInDim S185625x2 ![0, 1] bcast_S185625x1_S185625x2_0_1 (broadcastInDim S185625x1 ![0] bcast_S185625_S185625x1_0 (mulf (Host.gather gather_S5625_S185625x1_S185625_n_0_n_n_0_1_1 (dinv2 e) (wrapCol2 (ends2 0 e))) (Host.gather gather_S5625_S185625x1_S185625_n_0_n_n_0_1_1 (dinv2 e) (wrapCol2 (ends2 1 e)))))))) (broadcastInDim S5625x2 ![0, 1] bcast_S1x2_S5625x2_0_1 (broadcastInDim S1x2 ![1] bcast_S2_S1x2_1 b))) shapeCasts_S5625x2_S250x45

/-! ## The joined features and the last step -/

/-- The two layers' re-laid outputs side by side: 68 + 45 = 113 features on each of 250 rows. -/
def joined (g1 : (⟨S250x68, .f32⟩ : BufTy).Contents (Elt F)) (g2 : (⟨S250x45, .f32⟩ : BufTy).Contents (Elt F)) :
    (⟨S250x113, .f32⟩ : BufTy).Contents (Elt F) :=
  concatenate S250x113 1 [⟨S250x68, g1⟩, ⟨S250x45, g2⟩] concatenates_S250x68_S250x45_S250x113_d1

/-- The positive part of the joined features times the final weights, plus the final bias on every row. -/
def head (g : (⟨S250x113, .f32⟩ : BufTy).Contents (Elt F)) (w : (⟨S113x5, .f32⟩ : BufTy).Contents (Elt F))
    (b : (⟨S5, .f32⟩ : BufTy).Contents (Elt F)) : (⟨S250x5, .f32⟩ : BufTy).Contents (Elt F) :=
  addf (Host.dotGeneral dot_S250x113_S113x5_S250x5_1_0_0_1_n_n none (maximumf g (broadcastInDim S250x113 ![] bcast_S_S250x113 (constant S_ .f32 0x00000000#32))) w) (broadcastInDim S250x5 ![0, 1] bcast_S1x5_S250x5_0_1 (broadcastInDim S1x5 ![1] bcast_S5_S1x5_1 b))

end Cert.ReferenceIdeal.Spec

end
-- ==== Proof.KernelValue.lean ====
import proofs.«166169_j52991306498332_1_alg».proof.Proof.Gen.KernelIdeal.Frame
import proofs.«166169_j52991306498332_1_alg».proof.Proof.KernelRegions
import proofs.«166169_j52991306498332_1_alg».proof.Proof.GcnSpec
import Idealize.ShloMosaic.Lib.StableHlo.Run

/-!
  The kernel program's result array, read back through the run's segment boundaries to the launch memory.
  The last region leaves its body's value of three arrays it finds at its entry: the joined features, the final weights,
  and the final bias re-laid to [1, 5]. The joined features are what the second host stretch computes: `joined` of the
  first layer's output, carried unchanged across region 1, and the second layer applied to region 1's output. The first
  layer's output is what the first host stretch computes from region 0's output. No host operation and no region writes
  an argument, so every argument read along the way is the launch memory's.
-/

set_option maxRecDepth 16384

noncomputable section

namespace Cert.KernelIdeal.Val

open Cert.KernelIdeal Cert.KernelIdeal.Gen Cert.KernelIdeal.Regions
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Region 0's exit -/

/-- A buffer that is no array of region 0 holds, at its exit, the launch memory's contents. -/
theorem W1_keep (c : Dev nD) (b : Ref sig .tc) (hb : ∀ w, Pipeline.arrRef spec0 w ≠ b) :
    W1 m ρ c (Proc.devRef .tc b) = m ((c : Thread nD τ).loc b) :=
  W1_of_ne m ρ c b hb

/-- Region 0's output array holds the body's value of x1 and W1. -/
theorem W1_v0 (c : Dev nD) :
    W1 m ρ c (Proc.devRef .tc main_v0)
      = out0_2 (m ((c : Thread nD τ).loc main_arg0)) (m ((c : Thread nD τ).loc main_arg2)) :=
  (W1_arr m ρ c 2).trans (region0_out (V0 m ρ) c)

/-! ## The first host stretch: region 1's entry -/

/-- The first layer's re-laid output, from region 0's output, the first edge list and the first bias. -/
theorem W4_v48 (c : Dev nD) :
    W4 m ρ c (Proc.devRef .tc main_v48)
      = Cert.ReferenceIdeal.Spec.layer1 (W1 m ρ c (Proc.devRef .tc main_v0)) (W1 m ρ c (Proc.devRef .tc main_arg8))
          (W1 m ρ c (Proc.devRef .tc main_arg3)) := by
  show StableHlo.after hostOps1_2 (StableHlo.after hostOps1_1 (StableHlo.after hostOps1 (W1 m ρ c))) (Proc.devRef .tc main_v48) = _
  after_results_simp
  rfl

/-- The first host stretch writes no argument. -/
theorem W4_arg1 (c : Dev nD) : W4 m ρ c (Proc.devRef .tc main_arg1) = W1 m ρ c (Proc.devRef .tc main_arg1) := by
  show StableHlo.after hostOps1_2 (StableHlo.after hostOps1_1 (StableHlo.after hostOps1 (W1 m ρ c))) (Proc.devRef .tc main_arg1) = _
  after_results_simp
theorem W4_arg4 (c : Dev nD) : W4 m ρ c (Proc.devRef .tc main_arg4) = W1 m ρ c (Proc.devRef .tc main_arg4) := by
  show StableHlo.after hostOps1_2 (StableHlo.after hostOps1_1 (StableHlo.after hostOps1 (W1 m ρ c))) (Proc.devRef .tc main_arg4) = _
  after_results_simp
theorem W4_arg5 (c : Dev nD) : W4 m ρ c (Proc.devRef .tc main_arg5) = W1 m ρ c (Proc.devRef .tc main_arg5) := by
  show StableHlo.after hostOps1_2 (StableHlo.after hostOps1_1 (StableHlo.after hostOps1 (W1 m ρ c))) (Proc.devRef .tc main_arg5) = _
  after_results_simp
theorem W4_arg6 (c : Dev nD) : W4 m ρ c (Proc.devRef .tc main_arg6) = W1 m ρ c (Proc.devRef .tc main_arg6) := by
  show StableHlo.after hostOps1_2 (StableHlo.after hostOps1_1 (StableHlo.after hostOps1 (W1 m ρ c))) (Proc.devRef .tc main_arg6) = _
  after_results_simp
theorem W4_arg7 (c : Dev nD) : W4 m ρ c (Proc.devRef .tc main_arg7) = W1 m ρ c (Proc.devRef .tc main_arg7) := by
  show StableHlo.after hostOps1_2 (StableHlo.after hostOps1_1 (StableHlo.after hostOps1 (W1 m ρ c))) (Proc.devRef .tc main_arg7) = _
  after_results_simp
theorem W4_arg9 (c : Dev nD) : W4 m ρ c (Proc.devRef .tc main_arg9) = W1 m ρ c (Proc.devRef .tc main_arg9) := by
  show StableHlo.after hostOps1_2 (StableHlo.after hostOps1_1 (StableHlo.after hostOps1 (W1 m ρ c))) (Proc.devRef .tc main_arg9) = _
  after_results_simp

/-! ## Region 1's exit -/

/-- Region 1's output array holds the body's value of x2 and W2. -/
theorem W5_v49 (c : Dev nD) :
    W5 m ρ c (Proc.devRef .tc main_v49)
      = out1_2 (m ((c : Thread nD τ).loc main_arg1)) (m ((c : Thread nD τ).loc main_arg4)) := by
  refine (W5_arr m ρ c 2).trans ((region1_out (V4 m ρ) c).trans ?_)
  show out1_2 (W4 m ρ c (Proc.devRef .tc main_arg1)) (W4 m ρ c (Proc.devRef .tc main_arg4)) = _
  rw [W4_arg1, W4_arg4, W1_keep m ρ c main_arg1 (by decide), W1_keep m ρ c main_arg4 (by decide)]

/-! ## The second host stretch: region 2's entry -/

section Stretch2

variable (V : Valuation τ sig (Elt F))

/-- Whatever the buffers hold before it, the second host stretch leaves the second layer applied to the array it finds at
    region 1's output. -/
theorem stretch2_v97 :
    StableHlo.after hostOps2_2 (StableHlo.after hostOps2_1 (StableHlo.after hostOps2 V)) (Proc.devRef .tc main_v97)
      = Cert.ReferenceIdeal.Spec.layer2 (V (Proc.devRef .tc main_v49)) (V (Proc.devRef .tc main_arg9))
          (V (Proc.devRef .tc main_arg5)) := by
  after_results_simp
  rfl

/-- It does not write the first layer's output. -/
theorem stretch2_v48 :
    StableHlo.after hostOps2_2 (StableHlo.after hostOps2_1 (StableHlo.after hostOps2 V)) (Proc.devRef .tc main_v48)
      = V (Proc.devRef .tc main_v48) := by
  after_results_simp

/-- Its last operation but one joins the two layers' outputs as they stand then; the last one writes neither of them nor
    the join. -/
theorem stretch2_v98 :
    StableHlo.after hostOps2_2 V (Proc.devRef .tc main_v98)
      = Cert.ReferenceIdeal.Spec.joined (StableHlo.after hostOps2_2 V (Proc.devRef .tc main_v48))
          (StableHlo.after hostOps2_2 V (Proc.devRef .tc main_v97)) := by
  simp only [hostOps2_2, after_cons, after_nil]
  generalize (StableHlo.reshape main_v96 main_v97 _ _ _ _).result _ = R
  rw [reshape_result_ne]; rotate_left; decide
  rw [binary_result]
  rw [reshape_result_ne]; rotate_left; decide
  rw [binary_result_ne]; rotate_left; decide
  rw [reshape_result_ne]; rotate_left; decide
  rw [binary_result_ne]; rotate_left; decide
  rfl

end Stretch2

/-- The joined features: the first layer's output beside the second layer applied to region 1's output. -/
theorem W8_v98 (c : Dev nD) :
    W8 m ρ c (Proc.devRef .tc main_v98)
      = Cert.ReferenceIdeal.Spec.joined (W5 m ρ c (Proc.devRef .tc main_v48))
          (Cert.ReferenceIdeal.Spec.layer2 (W5 m ρ c (Proc.devRef .tc main_v49)) (W5 m ρ c (Proc.devRef .tc main_arg9))
            (W5 m ρ c (Proc.devRef .tc main_arg5))) := by
  refine (stretch2_v98 (W7 m ρ c)).trans ?_
  exact congrArg₂ Cert.ReferenceIdeal.Spec.joined (stretch2_v48 (W5 m ρ c)) (stretch2_v97 (W5 m ρ c))

/-- The final bias re-laid to [1, 5]. -/
theorem W8_v99 (c : Dev nD) :
    W8 m ρ c (Proc.devRef .tc main_v99)
      = shapeCast S1x5 (W5 m ρ c (Proc.devRef .tc main_arg7)) Facts₀.shapeCasts_S5_S1x5 := by
  show StableHlo.after hostOps2_2 (StableHlo.after hostOps2_1 (StableHlo.after hostOps2 (W5 m ρ c))) (Proc.devRef .tc main_v99) = _
  after_results_simp
  rfl

/-- The second host stretch does not write the final weights. -/
theorem W8_arg6 (c : Dev nD) : W8 m ρ c (Proc.devRef .tc main_arg6) = W5 m ρ c (Proc.devRef .tc main_arg6) := by
  show StableHlo.after hostOps2_2 (StableHlo.after hostOps2_1 (StableHlo.after hostOps2 (W5 m ρ c))) (Proc.devRef .tc main_arg6) = _
  after_results_simp

/-! ## The result array -/

/-- The result array at the last boundary: the last body's value of the joined features (the two layers over the two
    projection kernels' values), the final weights and the re-laid final bias, all of the launch memory's arguments. -/
theorem result_eq (c : Dev nD) :
    W9 m ρ c (Proc.devRef .tc main_v100)
      = out2_3
          (Cert.ReferenceIdeal.Spec.joined
            (Cert.ReferenceIdeal.Spec.layer1
              (out0_2 (m ((c : Thread nD τ).loc main_arg0)) (m ((c : Thread nD τ).loc main_arg2)))
              (m ((c : Thread nD τ).loc main_arg8)) (m ((c : Thread nD τ).loc main_arg3)))
            (Cert.ReferenceIdeal.Spec.layer2
              (out1_2 (m ((c : Thread nD τ).loc main_arg1)) (m ((c : Thread nD τ).loc main_arg4)))
              (m ((c : Thread nD τ).loc main_arg9)) (m ((c : Thread nD τ).loc main_arg5))))
          (m ((c : Thread nD τ).loc main_arg6))
          (shapeCast S1x5 (m ((c : Thread nD τ).loc main_arg7)) Facts₀.shapeCasts_S5_S1x5) := by
  refine (W9_arr m ρ c 3).trans ((region2_out (V8 m ρ) c).trans ?_)
  show out2_3 (W8 m ρ c (Proc.devRef .tc main_v98)) (W8 m ρ c (Proc.devRef .tc main_arg6)) (W8 m ρ c (Proc.devRef .tc main_v99)) = _
  rw [W8_v98, W8_arg6, W8_v99, W5_v49,
    W5_of_ne m ρ c main_v48 (by decide), W5_of_ne m ρ c main_arg9 (by decide), W5_of_ne m ρ c main_arg5 (by decide),
    W5_of_ne m ρ c main_arg6 (by decide), W5_of_ne m ρ c main_arg7 (by decide),
    W4_v48, W4_arg9, W4_arg5, W4_arg6, W4_arg7, W1_v0,
    W1_keep m ρ c main_arg8 (by decide), W1_keep m ρ c main_arg3 (by decide), W1_keep m ρ c main_arg9 (by decide),
    W1_keep m ρ c main_arg5 (by decide), W1_keep m ρ c main_arg6 (by decide), W1_keep m ρ c main_arg7 (by decide)]

end Cert.KernelIdeal.Val

end
-- ==== Proof.RefValue.lean ====
import proofs.«166169_j52991306498332_1_alg».proof.Proof.RefOps
import proofs.«166169_j52991306498332_1_alg».proof.Proof.GcnSpec
import Idealize.ShloMosaic.Lib.Pipeline.Frame

/-!
  The reference's run, read as the specification's functions. Its 134 host operations are cut once, before the
  operation that joins the two layers' outputs: the first 126 compute the two layers (each from the host's product of
  its node features with its weights), the last eight join them, take the positive part, multiply by the final weights
  and add the final bias. The last eight read four things the first 126 leave — the two layers' outputs and two
  arguments — and nothing of the last eight writes what the first 126 computed, so each of the four is read off the
  whole list. Result: `head (joined (layer1 (x1 · W1) e1 b1) (layer2 (x2 · W2) e2 b2)) Wf bf`.
-/

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RunP (ops main_eq scopedRefs_eq scopedSems_eq ops_sub)

variable {F : FTy → Type} [FloatOps F]

/-- The last eight operations of @main: the join, the positive part (a constant, its broadcast, the maximum), the
    product with the final weights, the final bias broadcast twice, the sum. -/
abbrev tailOps : List (HloOp τ sig (Elt F)) :=
  [
    binary main_v48 main_v97 main_v98 ((fun a b => concatenate S250x113 1 [⟨S250x68, a⟩, ⟨S250x45, b⟩] concatenates_S250x68_S250x45_S250x113_d1) : (⟨S250x68, .f32⟩ : BufTy).Contents (Elt F) → (⟨S250x45, .f32⟩ : BufTy).Contents (Elt F) → (⟨S250x113, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S250x113, .f32⟩) main_call2_v0) (broadcastInDim S250x113 ![] bcast_S_S250x113),
    TRef.binary (TRef.of (T := ⟨S250x113, .f32⟩) main_v98) (TRef.of (T := ⟨S250x113, .f32⟩) main_call2_v0) (TRef.of (T := ⟨S250x113, .f32⟩) main_v99) maximumf,
    binary main_v99 main_arg6 main_v100 ((fun l r => Host.dotGeneral dot_S250x113_S113x5_S250x5_1_0_0_1_n_n none l r) : (⟨S250x113, .f32⟩ : BufTy).Contents (Elt F) → (⟨S113x5, .f32⟩ : BufTy).Contents (Elt F) → (⟨S250x5, .f32⟩ : BufTy).Contents (Elt F)),
    unary main_arg7 main_v101 (broadcastInDim S1x5 ![1] bcast_S5_S1x5_1 : (⟨S5, .f32⟩ : BufTy).Contents (Elt F) → (⟨S1x5, .f32⟩ : BufTy).Contents (Elt F)),
    unary main_v101 main_v102 (broadcastInDim S250x5 ![0, 1] bcast_S1x5_S250x5_0_1 : (⟨S1x5, .f32⟩ : BufTy).Contents (Elt F) → (⟨S250x5, .f32⟩ : BufTy).Contents (Elt F)),
    binary main_v100 main_v102 main_v103 (addf : (⟨S250x5, .f32⟩ : BufTy).Contents (Elt F) → (⟨S250x5, .f32⟩ : BufTy).Contents (Elt F) → (⟨S250x5, .f32⟩ : BufTy).Contents (Elt F)) ]

/-- The operations before the join. -/
abbrev headOps : List (HloOp τ sig (Elt F)) := (ops (F := F)).take 126

/-- @main's operations are the first 126 followed by the last eight. -/
theorem ops_split : (ops : List (HloOp τ sig (Elt F))) = headOps ++ tailOps := rfl

variable (V : Valuation τ sig (Elt F))

/-- After all of @main a buffer holds what the last eight operations leave in it, started from what the first 126 leave. -/
theorem after_ops (b : DevRef τ sig) : after ops V b = after tailOps (after headOps V) b :=
  (congrArg (fun l => after l V b) ops_split).trans (congrFun (StableHlo.after_append headOps tailOps V) b)

/-! ## The last eight operations, from any contents -/

/-- They leave `head` of the join of the two layers' outputs, the final weights and the final bias. -/
theorem tail_result :
    after tailOps V (Proc.devRef .tc main_v103)
      = Spec.head (Spec.joined (V (Proc.devRef .tc main_v48)) (V (Proc.devRef .tc main_v97)))
          (V (Proc.devRef .tc main_arg6)) (V (Proc.devRef .tc main_arg7)) := by
  after_results_simp
  rfl

/-- They write neither layer's output. -/
theorem tail_v48 : after tailOps V (Proc.devRef .tc main_v48) = V (Proc.devRef .tc main_v48) := by after_results_simp
theorem tail_v97 : after tailOps V (Proc.devRef .tc main_v97) = V (Proc.devRef .tc main_v97) := by after_results_simp
/-- Nor the final weights, nor the final bias. -/
theorem tail_arg6 : after tailOps V (Proc.devRef .tc main_arg6) = V (Proc.devRef .tc main_arg6) := by after_results_simp
theorem tail_arg7 : after tailOps V (Proc.devRef .tc main_arg7) = V (Proc.devRef .tc main_arg7) := by after_results_simp

/-! ## The whole list, at the buffers the last eight read -/

/-- The first layer's output: the layer applied to the host's product x1 · W1. -/
theorem ops_v48 :
    after ops V (Proc.devRef .tc main_v48)
      = Spec.layer1 (Host.dotGeneral dot_S85x256_S256x200_S85x200_1_0_0_1_n_n none (V (Proc.devRef .tc main_arg0)) (V (Proc.devRef .tc main_arg2)))
          (V (Proc.devRef .tc main_arg8)) (V (Proc.devRef .tc main_arg3)) := by
  after_results_simp
  rfl

set_option maxHeartbeats 4000000 in
/-- The second layer's output: the layer applied to the host's product x2 · W2. -/
theorem ops_v97 :
    after ops V (Proc.devRef .tc main_v97)
      = Spec.layer2 (Host.dotGeneral dot_S5625x128_S128x2_S5625x2_1_0_0_1_n_n none (V (Proc.devRef .tc main_arg1)) (V (Proc.devRef .tc main_arg4)))
          (V (Proc.devRef .tc main_arg9)) (V (Proc.devRef .tc main_arg5)) := by
  after_results_simp
  rfl

/-- No operation writes an argument. -/
theorem ops_arg0 : after ops V (Proc.devRef .tc main_arg0) = V (Proc.devRef .tc main_arg0) := by after_results_simp
theorem ops_arg1 : after ops V (Proc.devRef .tc main_arg1) = V (Proc.devRef .tc main_arg1) := by after_results_simp
theorem ops_arg2 : after ops V (Proc.devRef .tc main_arg2) = V (Proc.devRef .tc main_arg2) := by after_results_simp
theorem ops_arg3 : after ops V (Proc.devRef .tc main_arg3) = V (Proc.devRef .tc main_arg3) := by after_results_simp
theorem ops_arg4 : after ops V (Proc.devRef .tc main_arg4) = V (Proc.devRef .tc main_arg4) := by after_results_simp
theorem ops_arg5 : after ops V (Proc.devRef .tc main_arg5) = V (Proc.devRef .tc main_arg5) := by after_results_simp
theorem ops_arg6 : after ops V (Proc.devRef .tc main_arg6) = V (Proc.devRef .tc main_arg6) := by after_results_simp
theorem ops_arg7 : after ops V (Proc.devRef .tc main_arg7) = V (Proc.devRef .tc main_arg7) := by after_results_simp
theorem ops_arg8 : after ops V (Proc.devRef .tc main_arg8) = V (Proc.devRef .tc main_arg8) := by after_results_simp
theorem ops_arg9 : after ops V (Proc.devRef .tc main_arg9) = V (Proc.devRef .tc main_arg9) := by after_results_simp

/-- What the first 126 operations leave at a buffer the last eight do not write is what all of @main leaves there. -/
theorem head_of_ops {b : DevRef τ sig} (hb : after tailOps (after headOps V) b = after headOps V b) :
    after headOps V b = after ops V b :=
  hb.symm.trans (after_ops V b).symm

/-- The result buffer after all of @main, from any launch contents. -/
theorem ops_result :
    after ops V (Proc.devRef .tc main_v103)
      = Spec.head
          (Spec.joined
            (Spec.layer1 (Host.dotGeneral dot_S85x256_S256x200_S85x200_1_0_0_1_n_n none (V (Proc.devRef .tc main_arg0)) (V (Proc.devRef .tc main_arg2)))
              (V (Proc.devRef .tc main_arg8)) (V (Proc.devRef .tc main_arg3)))
            (Spec.layer2 (Host.dotGeneral dot_S5625x128_S128x2_S5625x2_1_0_0_1_n_n none (V (Proc.devRef .tc main_arg1)) (V (Proc.devRef .tc main_arg4)))
              (V (Proc.devRef .tc main_arg9)) (V (Proc.devRef .tc main_arg5))))
          (V (Proc.devRef .tc main_arg6)) (V (Proc.devRef .tc main_arg7)) := by
  rw [after_ops, tail_result,
    head_of_ops V (tail_v48 _), head_of_ops V (tail_v97 _), head_of_ops V (tail_arg6 _), head_of_ops V (tail_arg7 _),
    ops_v48, ops_v97, ops_arg6, ops_arg7]

/-! ## The run -/

/-- Every weakly fair execution of the reference terminates; its result ends at the specification's value of the launch
    memory's arguments, and every argument ends as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v103)
        = Spec.head
            (Spec.joined
              (Spec.layer1 (Host.dotGeneral dot_S85x256_S256x200_S85x200_1_0_0_1_n_n none (m ((c.tc : Thread nD τ).loc main_arg0)) (m ((c.tc : Thread nD τ).loc main_arg2)))
                (m ((c.tc : Thread nD τ).loc main_arg8)) (m ((c.tc : Thread nD τ).loc main_arg3)))
              (Spec.layer2 (Host.dotGeneral dot_S5625x128_S128x2_S5625x2_1_0_0_1_n_n none (m ((c.tc : Thread nD τ).loc main_arg1)) (m ((c.tc : Thread nD τ).loc main_arg4)))
                (m ((c.tc : Thread nD τ).loc main_arg9)) (m ((c.tc : Thread nD τ).loc main_arg5))))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      ⟨(h c main_v103).trans (ops_result (launchContents m c)),
       (h c main_arg0).trans (ops_arg0 (launchContents m c)),
       (h c main_arg1).trans (ops_arg1 (launchContents m c)),
       (h c main_arg2).trans (ops_arg2 (launchContents m c)),
       (h c main_arg3).trans (ops_arg3 (launchContents m c)),
       (h c main_arg4).trans (ops_arg4 (launchContents m c)),
       (h c main_arg5).trans (ops_arg5 (launchContents m c)),
       (h c main_arg6).trans (ops_arg6 (launchContents m c)),
       (h c main_arg7).trans (ops_arg7 (launchContents m c)),
       (h c main_arg8).trans (ops_arg8 (launchContents m c)),
       (h c main_arg9).trans (ops_arg9 (launchContents m c))⟩)
    (run_seq scopedRefs_eq scopedSems_eq defs main (fun _ => ops) main_eq (fun _ => ops_sub) m ρ)

end Cert.ReferenceIdeal.RefValue

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.Bridge.lean ====
import proofs.«166169_j52991306498332_1_alg».proof.Proof.KernelRegions
import proofs.«166169_j52991306498332_1_alg».proof.Proof.GcnSpec
import proofs.«166169_j52991306498332_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

/-!
  At the ideal values a change of float format is the identity and a matrix product is its textbook sum, whoever
  computes it. So each projection kernel's stored value, the product of its two loads rounded to bf16 first, is the
  host's product of the same two arrays: entry (p, q) of both is the sum over k of x(p, k) · w(k, q). And the last
  kernel's stored value is `head`: entry (p, q) of both is the sum over k of max(g(p, k), 0) · w(k, q), plus b(q), the
  kernel reading b through a [1, 5] re-lay broadcast over the rows, the host through two broadcasts.
-/

open scoped BigOperators

noncomputable section

namespace Cert.Bridge

open Idealize.ShloMosaic Idealize.ShloMosaic.ValueIdx
open Cert.KernelIdeal.Gen Cert.KernelIdeal.Regions

/-- Region 0's value is the host's product x1 · W1. -/
theorem proj1_eq (x : FVec Ideal Cert.KernelIdeal.S85x256 .f32) (w : FVec Ideal Cert.KernelIdeal.S256x200 .f32) :
    out0_2 (F := Ideal) x w
      = Host.dotGeneral (F := Ideal) Cert.ReferenceIdeal.dot_S85x256_S256x200_S85x200_1_0_0_1_n_n none x w := by
  rw [out0_2_eq]
  funext j
  obtain ⟨p, q, rfl⟩ : ∃ (p : Fin 85) (q : Fin 200), j = ix2 p q := ⟨j 0, j 1, eq_ix2 j⟩
  unfold k0_pay1
  refine (Cert.Lib.PlainDot.matmul_zero_apply Cert.KernelIdeal.dot_S85x256_S256x200_S85x200_1_0_0_1_n_n rfl rfl rfl rfl rfl rfl
    none _ _ p q).trans ?_
  exact (Cert.Lib.PlainDot.dotGeneral_apply Cert.ReferenceIdeal.dot_S85x256_S256x200_S85x200_1_0_0_1_n_n rfl rfl rfl rfl rfl rfl
    none .single x w p q).symm

/-- Region 1's value is the host's product x2 · W2. -/
theorem proj2_eq (x : FVec Ideal Cert.KernelIdeal.S5625x128 .f32) (w : FVec Ideal Cert.KernelIdeal.S128x2 .f32) :
    out1_2 (F := Ideal) x w
      = Host.dotGeneral (F := Ideal) Cert.ReferenceIdeal.dot_S5625x128_S128x2_S5625x2_1_0_0_1_n_n none x w := by
  rw [out1_2_eq]
  funext j
  obtain ⟨p, q, rfl⟩ : ∃ (p : Fin 5625) (q : Fin 2), j = ix2 p q := ⟨j 0, j 1, eq_ix2 j⟩
  unfold k1_pay1
  refine (Cert.Lib.PlainDot.matmul_zero_apply Cert.KernelIdeal.dot_S5625x128_S128x2_S5625x2_1_0_0_1_n_n rfl rfl rfl rfl rfl rfl
    none _ _ p q).trans ?_
  exact (Cert.Lib.PlainDot.dotGeneral_apply Cert.ReferenceIdeal.dot_S5625x128_S128x2_S5625x2_1_0_0_1_n_n rfl rfl rfl rfl rfl rfl
    none .single x w p q).symm

/-- The host's two broadcasts of the final bias read, at (p, q), the bias at q. -/
theorem bias_rows_apply (b : FVec Ideal Cert.ReferenceIdeal.S5 .f32) (p : Fin 250) (q : Fin 5) :
    broadcastInDim Cert.ReferenceIdeal.S250x5 ![0, 1] Cert.ReferenceIdeal.Facts₀.bcast_S1x5_S250x5_0_1
      (broadcastInDim Cert.ReferenceIdeal.S1x5 ![1] Cert.ReferenceIdeal.Facts₀.bcast_S5_S1x5_1 b) (ix2 p q) = b (ix1 q) := by
  refine (broadcastInDim_apply _ _ _ (ix2 p q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

/-- Region 2's value, its third operand the final bias re-laid to [1, 5], is `head` of the joined features, the final
    weights and the final bias. -/
theorem head_eq (g : FVec Ideal Cert.KernelIdeal.S250x113 .f32) (w : FVec Ideal Cert.KernelIdeal.S113x5 .f32)
    (b : FVec Ideal Cert.KernelIdeal.S5 .f32) (h : Cert.KernelIdeal.S5.ShapeCasts Cert.KernelIdeal.S1x5) :
    out2_3 (F := Ideal) g w (shapeCast Cert.KernelIdeal.S1x5 b h) = Cert.ReferenceIdeal.Spec.head (F := Ideal) g w b := by
  rw [out2_3_eq]
  funext j
  obtain ⟨p, q, rfl⟩ : ∃ (p : Fin 250) (q : Fin 5), j = ix2 p q := ⟨j 0, j 1, eq_ix2 j⟩
  unfold k2_pay1 Cert.ReferenceIdeal.Spec.head
  rw [addf_apply, addf_apply, bias_rows_apply]
  refine congrArg₂ (· + ·) ?_ ?_
  · refine (Cert.Lib.PlainDot.matmul_zero_apply Cert.KernelIdeal.dot_S250x113_S113x5_S250x5_1_0_0_1_n_n rfl rfl rfl rfl rfl rfl
      none _ _ p q).trans ?_
    refine Eq.trans ?_ (Cert.Lib.PlainDot.dotGeneral_apply Cert.ReferenceIdeal.dot_S250x113_S113x5_S250x5_1_0_0_1_n_n rfl rfl rfl rfl rfl rfl
      none .single _ w p q).symm
    refine Finset.sum_congr rfl fun k _ => ?_
    rw [truncf_apply, truncf_apply, maximumf_apply, maximumf_apply, shapeCast_self]
    rfl
  · rw [broadcastTo_1b_ab_apply, shapeCast_self]
    exact shapeCast_a_1a_apply b h (0 : Fin 1) q

end Cert.Bridge

end
-- ==== Proof.lean ====
/-
  Two graph-convolution layers, their outputs re-laid and joined, a positive part and a final linear map: the kernel
  program against its jnp reference, over the extended reals.

  Both programs compute  out(p, q) = Σ_k max(h(p, k), 0) · Wf(k, q) + bf(q)  with h the join of the two layers'
  outputs, layer i being  D^(-1/2) (A + I) D^(-1/2) (x_i · W_i) + b_i  on its graph. The aggregation (degrees, the
  normalisation, the gather of source rows, the scatter-add at the destinations, the bias) is the SAME sequence of host
  operations in both programs: it is carried as one function of the projected features and never opened. What differs
  is who multiplies: the kernel program's three regions (x_1 · W_1, x_2 · W_2, and the last step with its positive part
  and bias inside the region, operands rounded to bf16 first) against the reference's three host products. At the ideal
  values a rounding is the identity and a matrix product is its sum over the contracted index, so the three pairs
  agree entry by entry; no law that needs finite inputs is used, and the precondition is never opened.

  The frames of the two kernel programs are the generated ones; the reference's is its run with the result dropped;
  nothing was rewritten by the ideal pass, so `preserves` is trivial.
-/
import proofs.«166169_j52991306498332_1_alg».proof.Defs
import proofs.«166169_j52991306498332_1_alg».proof.Proof.Gen.Kernel
import proofs.«166169_j52991306498332_1_alg».proof.Proof.Gen.Kernel.Skeleton
import proofs.«166169_j52991306498332_1_alg».proof.Proof.Gen.Kernel.Launch
import proofs.«166169_j52991306498332_1_alg».proof.Proof.Gen.Kernel.Points
import proofs.«166169_j52991306498332_1_alg».proof.Proof.Gen.Kernel.Frame
import proofs.«166169_j52991306498332_1_alg».proof.Proof.Gen.KernelIdeal
import proofs.«166169_j52991306498332_1_alg».proof.Proof.Gen.KernelIdeal.Skeleton
import proofs.«166169_j52991306498332_1_alg».proof.Proof.Gen.KernelIdeal.Launch
import proofs.«166169_j52991306498332_1_alg».proof.Proof.Gen.KernelIdeal.Points
import proofs.«166169_j52991306498332_1_alg».proof.Proof.Gen.KernelIdeal.Frame
import proofs.«166169_j52991306498332_1_alg».proof.Proof.Gen.ReferenceIdeal
import proofs.«166169_j52991306498332_1_alg».proof.Proof.Gen.Pre_finite_inputs
import proofs.«166169_j52991306498332_1_alg».proof.Proof.KernelRun
import proofs.«166169_j52991306498332_1_alg».proof.Proof.KernelValue
import proofs.«166169_j52991306498332_1_alg».proof.Proof.RefOps
import proofs.«166169_j52991306498332_1_alg».proof.Proof.RefValue
import proofs.«166169_j52991306498332_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs, and its arguments end unchanged: its run, the result's value dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The ideal pass rewrote nothing. -/
theorem preserves : Cert.preserves_Kernel_KernelIdeal := trivial

/-- From memories that agree on the arguments both programs end with the same result array: the kernel program's is the
    last region's value of the joined layer outputs over the two projection regions' values, the reference's is `head`
    of the joined layer outputs over the two host products; the projections agree, and the last region's value is
    `head`. -/
theorem algebraic : Cert.algebraic_KernelIdeal_ReferenceIdeal := by
  intro m ρ m' ρ' _ hagree
  refine ⟨fun c => Cert.KernelIdeal.Gen.W9 m ρ c (Proc.devRef .tc Cert.KernelIdeal.main_v100),
    Cert.KernelIdeal.RunNamed.run_named (F := Ideal) m ρ, ?_⟩
  refine (θ_run Cert.ReferenceIdeal.defs _ _).mono (fun _ h c => ⟨(h c).1.trans ?_, (h c).2⟩)
    (Cert.ReferenceIdeal.RefValue.run (F := Ideal) m' ρ')
  obtain ⟨a0, a1, a2, a3, a4, a5, a6, a7, a8, a9⟩ := hagree c
  show _ = Cert.KernelIdeal.Gen.W9 m ρ c (Proc.devRef .tc Cert.KernelIdeal.main_v100)
  rw [Cert.KernelIdeal.Val.result_eq, a0, a1, a2, a3, a4, a5, a6, a7, a8, a9,
    Cert.Bridge.head_eq, Cert.Bridge.proj1_eq, Cert.Bridge.proj2_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
